-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S600000 : Shape := ⟨1, ![600000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S600000 : S_.BroadcastsInDim S600000 (![] : Fin 0 → Fin S600000.rank)
  reducesTo_S600000_S_d0 : S600000.ReducesTo [0] S_

variable [Facts]

def fn_part4 {F : FTy → Type} [FloatOps F] (main_arg2 : IVec S600000 32) (main_arg3 : IVec S600000 32) (main_v63 : IVec S_ 1) (main_v67 : IVec S_ 1) : IVec S_ 1 :=
  let main_v68 : IVec S_ 1 := andi main_v63 main_v67
  let main_c_26 : IVec S_ 32 := constantI S_ 32 0#32
  let main_v69 : IVec S600000 32 := broadcastInDim S600000 ![] bcast_S_S600000 main_c_26
  let main_v70 : IVec S600000 1 := cmpi .sge main_arg2 main_v69
  let main_c_27 : IVec S_ 1 := constantI S_ 1 1#1
  let main_v71 : IVec S_ 1 := (fun x v => Host.reduce IntOp.andi x v reducesTo_S600000_S_d0 h_S_) main_v70 main_c_27
  let main_v72 : IVec S_ 1 := andi main_v68 main_v71
  let main_c_28 : IVec S_ 32 := constantI S_ 32 0#32
  let main_v73 : IVec S600000 32 := broadcastInDim S600000 ![] bcast_S_S600000 main_c_28
  let main_v74 : IVec S600000 1 := cmpi .sge main_arg3 main_v73
  let main_c_29 : IVec S_ 1 := constantI S_ 1 1#1
  let main_v75 : IVec S_ 1 := (fun x v => Host.reduce IntOp.andi x v reducesTo_S600000_S_d0 h_S_) main_v74 main_c_29
  let main_v76 : IVec S_ 1 := andi main_v72 main_v75
  main_v76

def fn_part3 {F : FTy → Type} [FloatOps F] (main_arg2 : IVec S600000 32) (main_arg3 : IVec S600000 32) (main_arg13 : FVec F S128 .f32) (main_arg14 : FVec F S128 .f32) (main_arg15 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg3 main_v63 main_v67

def fn_part2 {F : FTy → Type} [FloatOps F] (main_arg2 : IVec S600000 32) (main_arg3 : IVec S600000 32) (main_arg9 : FVec F S128 .f32) (main_arg10 : FVec F S256x128 .f32) (main_arg11 : FVec F S128 .f32) (main_arg12 : FVec F S128x128 .f32) (main_arg13 : FVec F S128 .f32) (main_arg14 : FVec F S128 .f32) (main_arg15 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg2 main_arg3 main_arg13 main_arg14 main_arg15 main_v48 main_v49 main_v50

def fn_part1 {F : FTy → Type} [FloatOps F] (main_arg2 : IVec S600000 32) (main_arg3 : IVec S600000 32) (main_arg6 : FVec F S128x128 .f32) (main_arg7 : FVec F S128 .f32) (main_arg8 : FVec F S128 .f32) (main_arg9 : FVec F S128 .f32) (main_arg10 : FVec F S256x128 .f32) (main_arg11 : FVec F S128 .f32) (main_arg12 : FVec F S128x128 .f32) (main_arg13 : FVec F S128 .f32) (main_arg14 : FVec F S128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg3 main_arg9 main_arg10 main_arg11 main_arg12 main_arg13 main_arg14 main_arg15 main_v33

def fn {F : FTy → Type} [FloatOps F] (main_arg0 : FVec F S50000x128 .f32) (main_arg1 : FVec F S600000x128 .f32) (main_arg2 : IVec S600000 32) (main_arg3 : IVec S600000 32) (main_arg4 : FVec F S384x128 .f32) (main_arg5 : FVec F S128 .f32) (main_arg6 : FVec F S128x128 .f32) (main_arg7 : FVec F S128 .f32) (main_arg8 : FVec F S128 .f32) (main_arg9 : FVec F S128 .f32) (main_arg10 : FVec F S256x128 .f32) (main_arg11 : FVec F S128 .f32) (main_arg12 : FVec F S128x128 .f32) (main_arg13 : FVec F S128 .f32) (main_arg14 : FVec F S128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S384x128 .f32 := Host.absf main_arg4
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_arg10 main_arg11 main_arg12 main_arg13 main_arg14 main_arg15 main_v13 main_v16
-- ==== Kernel.lean ====
abbrev S50000x128 : Shape := ⟨2, ![50000, 128]⟩
abbrev S600000x128 : Shape := ⟨2, ![600000, 128]⟩
abbrev S600000 : Shape := ⟨1, ![600000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S600000x1 : Shape := ⟨2, ![600000, 1]⟩
abbrev S4000x128 : Shape := ⟨2, ![4000, 128]⟩
abbrev S1x128 : Shape := ⟨2, ![1, 128]⟩
abbrev S4000 : Shape := ⟨1, ![4000]⟩
abbrev S4000x1 : Shape := ⟨2, ![4000, 1]⟩
abbrev S_ : Shape := ⟨0, ![]⟩
abbrev S2000x128 : Shape := ⟨2, ![2000, 128]⟩
abbrev S2000 : Shape := ⟨1, ![2000]⟩
abbrev S2000x1 : Shape := ⟨2, ![2000, 1]⟩

abbrev nBuf : Space → Nat
  | .hbm => 32
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S50000x128, .bf16⟩
  | .hbm, ⟨17, _⟩ => ⟨S600000x1, .i32⟩
  | .hbm, ⟨18, _⟩ => ⟨S600000x128, .bf16⟩
  | .hbm, ⟨19, _⟩ => ⟨S600000x1, .i32⟩
  | .hbm, ⟨20, _⟩ => ⟨S600000x128, .bf16⟩
  | .hbm, ⟨21, _⟩ => ⟨S384x128, .bf16⟩
  | .hbm, ⟨22, _⟩ => ⟨S128x128, .bf16⟩
  | .hbm, ⟨23, _⟩ => ⟨S256x128, .bf16⟩
  | .hbm, ⟨24, _⟩ => ⟨S128x128, .bf16⟩
  | .hbm, ⟨25, _⟩ => ⟨S600000x128, .f32⟩
  | .hbm, ⟨26, _⟩ => ⟨S600000x128, .f32⟩
  | .hbm, ⟨27, _⟩ => ⟨S_, .f32⟩
  | .hbm, ⟨28, _⟩ => ⟨S50000x128, .f32⟩
  | .hbm, ⟨29, _⟩ => ⟨S600000x1, .i32⟩
  | .hbm, ⟨30, _⟩ => ⟨S50000x128, .f32⟩
  | .hbm, ⟨31, _⟩ => ⟨S50000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x128, .f32⟩
  | .local _ .vmem, ⟨5, _⟩ => ⟨S4000x128, .f32⟩
  | .local _ .vmem, ⟨6, _⟩ => ⟨S384x128, .bf16⟩
  | .local _ .vmem, ⟨7, _⟩ => ⟨S128, .f32⟩
  | .local _ .vmem, ⟨8, _⟩ => ⟨S128x128, .bf16⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S256x128, .bf16⟩
  | .local _ .vmem, ⟨21, _⟩ => ⟨S128, .f32⟩
  | .local _ .vmem, ⟨22, _⟩ => ⟨S128x128, .bf16⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S2000x128, .f32⟩
  | .local _ .vmem, ⟨27, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_call0_v0 : Ref sig .tc := ⟨.hbm, 17, rfl⟩
abbrev main_v1 : Ref sig .tc := ⟨.hbm, 18, rfl⟩
abbrev main_call1_v0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7_0 : Ref sig .tc := ⟨.hbm, 25, rfl⟩
abbrev main_v7_1 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bitsLt_bf16_f32 : FTy.bits .bf16 < FTy.bits .f32
  bcast_S600000_S600000x1_0 : S600000.BroadcastsInDim S600000x1 (![0] : Fin 1 → Fin S600000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S384x128_S384x128_0_0 : ∀ a, (![0, 0] : Fin 2 → Nat) a + S384x128.size a ≤ S384x128.size a
  h_S384x128 : 0 < S384x128.numel
  shapeCasts_S384x128_S384x128 : S384x128.ShapeCasts S384x128
  slices_S384x128_o0_0_S128x128 : S384x128.Slices ![0, 0] S128x128
  slices_S384x128_o128_0_S128x128 : S384x128.Slices ![128, 0] S128x128
  slices_S384x128_o256_0_S128x128 : S384x128.Slices ![256, 0] S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S4000x128_S4000 : S4000x128.Reduces [1] S4000
  shapeCasts_S4000_S4000x1 : S4000.ShapeCasts S4000x1
  broadcasts_S4000x1_S4000x128 : S4000x1.Broadcasts S4000x128
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S256x128_o0_0_S128x128 : S256x128.Slices ![0, 0] S128x128
  slices_S256x128_o128_0_S128x128 : S256x128.Slices ![128, 0] S128x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S50000x128_S600000x1_S600000x128_1_0_n_n_0_1_1128_wf : GatherDims.WF S50000x128 S600000x1 S600000x128 [1] [0] [] [0] [] 1 ![1, 128]
  dot_S4000x128_S128x128_S4000x128_1_0_0_1_n_n_wf : DotDims.WF S4000x128 S128x128 S4000x128 [1] [0] [0] [1] [] []
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S600000x128.size a
  hwx0_0 : ∀ i : grid0.Coords, EltTy.bits .bf16 = 32 ∨ (Rect.block (s := S600000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S600000x128.size a
  hwx0_1 : ∀ i : grid0.Coords, EltTy.bits .bf16 = 32 ∨ (Rect.block (s := S600000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S600000x128.size a
  hwx0_2 : ∀ i : grid0.Coords, EltTy.bits .f32 = 32 ∨ (Rect.block (s := S600000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .bf16 = 32 ∨ (Rect.block (s := S384x128) S384x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S600000x128.size a
  hwx0_9 : ∀ i : grid0.Coords, EltTy.bits .f32 = 32 ∨ (Rect.block (s := S600000x128) S4000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S600000x128.size a
  hwx0_10 : ∀ i : grid0.Coords, EltTy.bits .f32 = 32 ∨ (Rect.block (s := S600000x128) S4000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v1) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7_0) S4000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7_1) S4000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S600000 : Shape := ⟨1, ![600000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S600000x1 : Shape := ⟨2, ![600000, 1]⟩
abbrev S600000x384 : Shape := ⟨2, ![600000, 384]⟩
abbrev S1x128 : Shape := ⟨2, ![1, 128]⟩
abbrev S50000x256 : Shape := ⟨2, ![50000, 256]⟩
abbrev S50000 : Shape := ⟨1, ![50000]⟩
abbrev S50000x1 : Shape := ⟨2, ![50000, 1]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S600000x384, .f32⟩
  | .hbm, ⟨35, _⟩ => ⟨S600000x128, .f32⟩
  | .hbm, ⟨36, _⟩ => ⟨S1x128, .f32⟩
  | .hbm, ⟨37, _⟩ => ⟨S600000x128, .f32⟩
  | .hbm, ⟨38, _⟩ => ⟨S600000x128, .f32⟩
  | .hbm, ⟨39, _⟩ => ⟨S_, .f32⟩
  | .hbm, ⟨40, _⟩ => ⟨S600000x128, .f32⟩
  | .hbm, ⟨41, _⟩ => ⟨S600000x128, .f32⟩
  | .hbm, ⟨42, _⟩ => ⟨S600000x128, .f32⟩
  | .hbm, ⟨43, _⟩ => ⟨S1x128, .f32⟩
  | .hbm, ⟨44, _⟩ => ⟨S600000x128, .f32⟩
  | .hbm, ⟨45, _⟩ => ⟨S600000x128, .f32⟩
  | .hbm, ⟨46, _⟩ => ⟨S_, .f32⟩
  | .hbm, ⟨47, _⟩ => ⟨S600000, .f32⟩
  | .hbm, ⟨48, _⟩ => ⟨S600000x1, .f32⟩
  | .hbm, ⟨49, _⟩ => ⟨S_, .f32⟩
  | .hbm, ⟨50, _⟩ => ⟨S600000x1, .f32⟩
  | .hbm, ⟨51, _⟩ => ⟨S600000x1, .f32⟩
  | .hbm, ⟨52, _⟩ => ⟨S600000x128, .f32⟩
  | .hbm, ⟨53, _⟩ => ⟨S600000x128, .f32⟩
  | .hbm, ⟨54, _⟩ => ⟨S600000x128, .f32⟩
  | .hbm, ⟨55, _⟩ => ⟨S_, .f32⟩
  | .hbm, ⟨56, _⟩ => ⟨S600000, .f32⟩
  | .hbm, ⟨57, _⟩ => ⟨S600000x1, .f32⟩
  | .hbm, ⟨58, _⟩ => ⟨S_, .f32⟩
  | .hbm, ⟨59, _⟩ => ⟨S600000x1, .f32⟩
  | .hbm, ⟨60, _⟩ => ⟨S600000x1, .f32⟩
  | .hbm, ⟨61, _⟩ => ⟨S600000x128, .f32⟩
  | .hbm, ⟨62, _⟩ => ⟨S600000x128, .f32⟩
  | .hbm, ⟨63, _⟩ => ⟨S_, .f32⟩
  | .hbm, ⟨64, _⟩ => ⟨S600000x1, .f32⟩
  | .hbm, ⟨65, _⟩ => ⟨S600000x1, .f32⟩
  | .hbm, ⟨66, _⟩ => ⟨S600000x1, .f32⟩
  | .hbm, ⟨67, _⟩ => ⟨S600000x128, .f32⟩
  | .hbm, ⟨68, _⟩ => ⟨S600000x128, .f32⟩
  | .hbm, ⟨69, _⟩ => ⟨S1x128, .f32⟩
  | .hbm, ⟨70, _⟩ => ⟨S600000x128, .f32⟩
  | .hbm, ⟨71, _⟩ => ⟨S600000x128, .f32⟩
  | .hbm, ⟨72, _⟩ => ⟨S1x128, .f32⟩
  | .hbm, ⟨73, _⟩ => ⟨S600000x128, .f32⟩
  | .hbm, ⟨74, _⟩ => ⟨S600000x128, .f32⟩
  | .hbm, ⟨75, _⟩ => ⟨S_, .f32⟩
  | .hbm, ⟨76, _⟩ => ⟨S50000x128, .f32⟩
  | .hbm, ⟨77, _⟩ => ⟨S600000x1, .i32⟩
  | .hbm, ⟨78, _⟩ => ⟨S50000x128, .f32⟩
  | .hbm, ⟨79, _⟩ => ⟨S50000x256, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000, .f32⟩
  | .hbm, ⟨93, _⟩ => ⟨S50000x1, .f32⟩
  | .hbm, ⟨94, _⟩ => ⟨S_, .f32⟩
  | .hbm, ⟨95, _⟩ => ⟨S50000x1, .f32⟩
  | .hbm, ⟨96, _⟩ => ⟨S50000x1, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S50000, .f32⟩
  | .hbm, ⟨102, _⟩ => ⟨S50000x1, .f32⟩
  | .hbm, ⟨103, _⟩ => ⟨S_, .f32⟩
  | .hbm, ⟨104, _⟩ => ⟨S50000x1, .f32⟩
  | .hbm, ⟨105, _⟩ => ⟨S50000x1, .f32⟩
  | .hbm, ⟨106, _⟩ => ⟨S50000x128, .f32⟩
  | .hbm, ⟨107, _⟩ => ⟨S50000x128, .f32⟩
  | .hbm, ⟨108, _⟩ => ⟨S_, .f32⟩
  | .hbm, ⟨109, _⟩ => ⟨S50000x1, .f32⟩
  | .hbm, ⟨110, _⟩ => ⟨S50000x1, .f32⟩
  | .hbm, ⟨111, _⟩ => ⟨S50000x1, .f32⟩
  | .hbm, ⟨112, _⟩ => ⟨S50000x128, .f32⟩
  | .hbm, ⟨113, _⟩ => ⟨S50000x128, .f32⟩
  | .hbm, ⟨114, _⟩ => ⟨S1x128, .f32⟩
  | .hbm, ⟨115, _⟩ => ⟨S50000x128, .f32⟩
  | .hbm, ⟨116, _⟩ => ⟨S50000x128, .f32⟩
  | .hbm, ⟨117, _⟩ => ⟨S1x128, .f32⟩
  | .hbm, ⟨118, _⟩ => ⟨S50000x128, .f32⟩
  | .hbm, ⟨119, _⟩ => ⟨S50000x128, .f32⟩
  | .hbm, ⟨120, _⟩ => ⟨S50000x128, .f32⟩
  | .hbm, ⟨121, _⟩ => ⟨S600000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call1_cst : Ref sig .tc := ⟨.hbm, 84, rfl⟩
abbrev main_call1_v0 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_cst_9 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_10 : Ref sig .tc := ⟨.hbm, 100, rfl⟩
abbrev main_v68 : Ref sig .tc := ⟨.hbm, 101, rfl⟩
abbrev main_v69 : Ref sig .tc := ⟨.hbm, 102, rfl⟩
abbrev main_cst_11 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_12 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x128_S600000x384_d1 : Shape.Concatenates [S600000x128, S600000x128, S600000x128] S600000x384 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  reducesTo_S600000x128_S600000_d1 : S600000x128.ReducesTo [1] S600000
  h_S_ : 0 < S_.numel
  bcast_S_S600000x1 : S_.BroadcastsInDim S600000x1 (![] : Fin 0 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S600000x384_S384x128_S600000x128_1_0_0_1_n_n_wf : DotDims.WF S600000x384 S384x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x384_S384x128_S600000x128_1_0_0_1_n_n : DotDims S600000x384 S384x128 S600000x128 where
  lhsContracting := [1]
  rhsContracting := [0]
  lhsNonContracting := [0]
  rhsNonContracting := [1]
  lhsBatch := []
  rhsBatch := []
  wf := dot_S600000x384_S384x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KHost.lean ====
/-
  The host operations around the two calls, read at the buffers the calls use.
  Before the edge call: the node table changes format (the identity on extended reals) and is gathered at the raw
  sender and receiver indices; the four weights change format; nothing else is written. Between the calls: the messages
  are summed per receiver (a scatter-add into zeros at the raw receiver indices); the node call finds the node table,
  that sum, and its weights and biases as launched. After the node call the new-node buffer is what its write-backs
  leave, and the new-edge buffer is still what the edge call's write-backs left.
-/
import proofs.«413768_j28114855920032_3_alg».proof.Proof.Gen.KernelIdeal.Frame
import Idealize.ShloMosaic.Lib.StableHlo.Run
import Idealize.ShloMosaic.PureOps.Ideal
import Idealize.ShloMosaic.Lib.ValueIdx

set_option maxRecDepth 16384

noncomputable section

namespace Cert.KernelIdeal.Host

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The node table gathered at an index array: row i is the node row at index idx[i] (clamped into range). -/
abbrev gath (node : S50000x128.Idx → EReal) (idx : IVec S600000 32) : S600000x128.Idx → EReal :=
  Host.gather gather_S50000x128_S600000x1_S600000x128_1_0_n_n_0_1_1128 node
    (broadcastInDim S600000x1 ![0] bcast_S600000_S600000x1_0 idx)

/-- The messages summed per receiver: a scatter-add into a table of zeros. -/
abbrev aggOf (rcv : IVec S600000 32) (msg : S600000x128.Idx → EReal) : S50000x128.Idx → EReal :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 rcv) msg

/-- Reads a buffer after the four stretches of host operations that precede the edge call: each operation's result at
    its own buffer is its function's value, at any other buffer what was there. -/
local macro "read_before_edge_call" : tactic =>
  `(tactic| (show StableHlo.after hostOps0_3 (StableHlo.after hostOps0_2 (StableHlo.after hostOps0_1
                (StableHlo.after hostOps0 (W0 _ _ _)))) _ = _
             after_results
             try rfl))

/-- Reads a buffer after the stretch of host operations between the two calls. -/
local macro "read_between_calls" : tactic =>
  `(tactic| (show StableHlo.after hostOps1 (W5 _ _ _) _ = _
             after_results
             try rfl))

/-! ## What the edge call finds: the two gathered tables, the edge table, and the weights and biases -/

theorem V4_v1 (c : Dev nD) :
    (V4 m ρ c main_v1 : S600000x128.Idx → EReal)
      = gath (m ((c : Thread nD τ).loc main_arg0)) (m ((c : Thread nD τ).loc main_arg2)) := by read_before_edge_call
theorem V4_v2 (c : Dev nD) :
    (V4 m ρ c main_v2 : S600000x128.Idx → EReal)
      = gath (m ((c : Thread nD τ).loc main_arg0)) (m ((c : Thread nD τ).loc main_arg3)) := by read_before_edge_call
theorem V4_arg1 (c : Dev nD) : (V4 m ρ c main_arg1 : S600000x128.Idx → EReal) = m ((c : Thread nD τ).loc main_arg1) := by
  read_before_edge_call
theorem V4_v3 (c : Dev nD) : (V4 m ρ c main_v3 : S384x128.Idx → EReal) = m ((c : Thread nD τ).loc main_arg4) := by
  read_before_edge_call
theorem V4_arg5 (c : Dev nD) : (V4 m ρ c main_arg5 : S128.Idx → EReal) = m ((c : Thread nD τ).loc main_arg5) := by
  read_before_edge_call
theorem V4_v4 (c : Dev nD) : (V4 m ρ c main_v4 : S128x128.Idx → EReal) = m ((c : Thread nD τ).loc main_arg6) := by
  read_before_edge_call
theorem V4_arg7 (c : Dev nD) : (V4 m ρ c main_arg7 : S128.Idx → EReal) = m ((c : Thread nD τ).loc main_arg7) := by
  read_before_edge_call
theorem V4_arg8 (c : Dev nD) : (V4 m ρ c main_arg8 : S128.Idx → EReal) = m ((c : Thread nD τ).loc main_arg8) := by
  read_before_edge_call
theorem V4_arg9 (c : Dev nD) : (V4 m ρ c main_arg9 : S128.Idx → EReal) = m ((c : Thread nD τ).loc main_arg9) := by
  read_before_edge_call

/-! ## The buffers the node call will use, as they stand before the edge call -/

theorem V4_arg0 (c : Dev nD) : (V4 m ρ c main_arg0 : S50000x128.Idx → EReal) = m ((c : Thread nD τ).loc main_arg0) := by
  read_before_edge_call
theorem V4_arg3 (c : Dev nD) : (V4 m ρ c main_arg3 : IVec S600000 32) = m ((c : Thread nD τ).loc main_arg3) := by
  read_before_edge_call
theorem V4_v5 (c : Dev nD) : (V4 m ρ c main_v5 : S256x128.Idx → EReal) = m ((c : Thread nD τ).loc main_arg10) := by
  read_before_edge_call
theorem V4_arg11 (c : Dev nD) : (V4 m ρ c main_arg11 : S128.Idx → EReal) = m ((c : Thread nD τ).loc main_arg11) := by
  read_before_edge_call
theorem V4_v6 (c : Dev nD) : (V4 m ρ c main_v6 : S128x128.Idx → EReal) = m ((c : Thread nD τ).loc main_arg12) := by
  read_before_edge_call
theorem V4_arg13 (c : Dev nD) : (V4 m ρ c main_arg13 : S128.Idx → EReal) = m ((c : Thread nD τ).loc main_arg13) := by
  read_before_edge_call
theorem V4_arg14 (c : Dev nD) : (V4 m ρ c main_arg14 : S128.Idx → EReal) = m ((c : Thread nD τ).loc main_arg14) := by
  read_before_edge_call
theorem V4_arg15 (c : Dev nD) : (V4 m ρ c main_arg15 : S128.Idx → EReal) = m ((c : Thread nD τ).loc main_arg15) := by
  read_before_edge_call

/-! ## Between the calls -/

/-- A buffer that is not one of the edge call's window arrays is, after the call, as the call found it. -/
theorem W5_keep (c : Dev nD) (b : Ref sig .tc) (hb : ∀ w, Pipeline.arrRef spec0 w ≠ b) :
    W5 m ρ c (Proc.devRef .tc b) = V4 m ρ c b := W5_of_ne m ρ c b hb

/-- The summed messages: the scatter-add of the message buffer at the raw receiver indices. -/
theorem W6_v10 (c : Dev nD) :
    (W6 m ρ c (Proc.devRef .tc main_v10) : S50000x128.Idx → EReal)
      = aggOf (W5 m ρ c (Proc.devRef .tc main_arg3)) (W5 m ρ c (Proc.devRef .tc main_v7_1)) := by read_between_calls

theorem W6_arg0 (c : Dev nD) : W6 m ρ c (Proc.devRef .tc main_arg0) = W5 m ρ c (Proc.devRef .tc main_arg0) := by
  read_between_calls
theorem W6_v5 (c : Dev nD) : W6 m ρ c (Proc.devRef .tc main_v5) = W5 m ρ c (Proc.devRef .tc main_v5) := by
  read_between_calls
theorem W6_arg11 (c : Dev nD) : W6 m ρ c (Proc.devRef .tc main_arg11) = W5 m ρ c (Proc.devRef .tc main_arg11) := by
  read_between_calls
theorem W6_v6 (c : Dev nD) : W6 m ρ c (Proc.devRef .tc main_v6) = W5 m ρ c (Proc.devRef .tc main_v6) := by
  read_between_calls
theorem W6_arg13 (c : Dev nD) : W6 m ρ c (Proc.devRef .tc main_arg13) = W5 m ρ c (Proc.devRef .tc main_arg13) := by
  read_between_calls
theorem W6_arg14 (c : Dev nD) : W6 m ρ c (Proc.devRef .tc main_arg14) = W5 m ρ c (Proc.devRef .tc main_arg14) := by
  read_between_calls
theorem W6_arg15 (c : Dev nD) : W6 m ρ c (Proc.devRef .tc main_arg15) = W5 m ρ c (Proc.devRef .tc main_arg15) := by
  read_between_calls
theorem W6_v7_0 (c : Dev nD) : W6 m ρ c (Proc.devRef .tc main_v7_0) = W5 m ρ c (Proc.devRef .tc main_v7_0) := by
  read_between_calls

/-! ## The results at the last boundary -/

/-- The new-node buffer is what the node call's write-backs leave. -/
theorem W7_v11 (c : Dev nD) : W7 m ρ c (Proc.devRef .tc main_v11) = (dat1 (V6 m ρ) c).arrAt 8 cfg1.N := W7_arr m ρ c 8

/-- The new-edge buffer is still what the edge call's write-backs left. -/
theorem W7_v7_0 (c : Dev nD) : W7 m ρ c (Proc.devRef .tc main_v7_0) = (dat0 (V4 m ρ) c).arrAt 9 cfg0.N :=
  (W7_of_ne m ρ c main_v7_0 (by decide)).trans ((W6_v7_0 m ρ c).trans (W5_arr m ρ c 9))

/-- The message buffer after the edge call is what its write-backs leave. -/
theorem W5_v7_1 (c : Dev nD) : W5 m ρ c (Proc.devRef .tc main_v7_1) = (dat0 (V4 m ρ) c).arrAt 10 cfg0.N := W5_arr m ρ c 10

end Cert.KernelIdeal.Host

end
-- ==== Proof.Spec.lean ====
/-
  The mathematics both programs compute, on rows of 128 extended reals.

  One message-passing step. For every edge i, the rows of its sender, of its receiver and of the edge itself go
  through a two-layer perceptron (a 384 → 128 linear map, the rectifier, a 128 → 128 linear map) followed by a layer
  normalisation over the 128 features; that is the edge's message, and the new edge row is the message plus the old
  row. For every node the messages of the edges arriving at it are summed, and the node's row and that sum go through
  a second perceptron of the same form (256 → 128 → 128) and a layer normalisation, plus the old row.

  The first linear map is written here as the sum of its 128-wide blocks (one per concatenated input); a single sum over
  the 384 (or 256) concatenated features is the same number, because addition of extended reals is associative and
  commutative (`sum384`, `sum256`): no finiteness is needed anywhere.
-/
import Idealize.ShloMosaic.Lib.ValueIdx
import Idealize.ShloMosaic.PureOps.Ideal.Laws

noncomputable section

open scoped BigOperators

namespace Cert.Spec

open Idealize.ShloMosaic Idealize.ShloMosaic.ValueIdx

/-- A feature row. -/
abbrev Row := Fin 128 → EReal

/-- The number of features, 128.0, as the word both programs divide by. -/
abbrev c128 : EReal := Ideal.ofBits .f32 0x43000000#32
/-- The layer normalisation's epsilon, the f32 nearest 1e-5, as the word both programs add. -/
abbrev eps : EReal := Ideal.ofBits .f32 0x3727C5AC#32
/-- The word 0.0 the rectifier takes the maximum with. -/
abbrev z0 : EReal := Ideal.ofBits .f32 0x00000000#32

/-- The mean of a row. -/
def mean (y : Row) : EReal := Ideal.div (∑ q, y q) c128
/-- A row minus its mean. -/
def cen (y : Row) : Row := fun q => y q - mean y
/-- The (biased) variance of a row: the mean of the squared centred entries. -/
def var (y : Row) : EReal := Ideal.div (∑ q, cen y q * cen y q) c128
/-- Layer normalisation with scale `g` and shift `b`: (y − mean) · (var + ε)^(−1/2) · g + b. -/
def lnorm (y g b : Row) : Row := fun q => cen y q * Ideal.rsqrt (var y + eps) * g q + b q

/-- The second layer on the rectified hidden row: Σ_k max(h_k, 0) · W2[k, q] + b2[q]. -/
def layer2 (h : Row) (W2 : Fin 128 → Row) (b2 : Row) : Row := fun q => (∑ k, max (h k) z0 * W2 k q) + b2 q

/-- The edge perceptron's first layer on (sender, receiver, edge): rows 0–127 of the weight meet the sender, rows
    128–255 the receiver, rows 256–383 the edge. -/
def hid3 (s r e : Row) (W1 : Fin 384 → Row) (b1 : Row) : Row := fun k =>
  ((∑ a : Fin 128, s a * W1 ⟨a.val, by have := a.isLt; omega⟩ k
      + ∑ a : Fin 128, r a * W1 ⟨128 + a.val, by have := a.isLt; omega⟩ k)
    + ∑ a : Fin 128, e a * W1 ⟨256 + a.val, by have := a.isLt; omega⟩ k) + b1 k

/-- The node perceptron's first layer on (node, summed messages). -/
def hid2 (n a : Row) (W1 : Fin 256 → Row) (b1 : Row) : Row := fun k =>
  (∑ j : Fin 128, n j * W1 ⟨j.val, by have := j.isLt; omega⟩ k
    + ∑ j : Fin 128, a j * W1 ⟨128 + j.val, by have := j.isLt; omega⟩ k) + b1 k

/-- An edge's message: the normalised output of the edge perceptron. -/
def edgeMsg (s r e : Row) (W1 : Fin 384 → Row) (b1 : Row) (W2 : Fin 128 → Row) (b2 g b : Row) : Row :=
  lnorm (layer2 (hid3 s r e W1 b1) W2 b2) g b

/-- A node's update before the residual: the normalised output of the node perceptron. -/
def nodeLn (n a : Row) (W1 : Fin 256 → Row) (b1 : Row) (W2 : Fin 128 → Row) (b2 g b : Row) : Row :=
  lnorm (layer2 (hid2 n a W1 b1) W2 b2) g b

/-! ## One sum over the concatenated features is the sum of the blocks' sums -/

theorem sum256 {M : Type*} [AddCommMonoid M] (f : Fin 256 → M) :
    ∑ a : Fin 256, f a
      = ∑ a : Fin 128, f ⟨a.val, by have := a.isLt; omega⟩ + ∑ a : Fin 128, f ⟨128 + a.val, by have := a.isLt; omega⟩ := by
  show ∑ a : Fin (128 + 128), f a = _
  rw [Fin.sum_univ_add]
  rfl

theorem sum384 {M : Type*} [AddCommMonoid M] (f : Fin 384 → M) :
    ∑ a : Fin 384, f a
      = (∑ a : Fin 128, f ⟨a.val, by have := a.isLt; omega⟩ + ∑ a : Fin 128, f ⟨128 + a.val, by have := a.isLt; omega⟩)
        + ∑ a : Fin 128, f ⟨256 + a.val, by have := a.isLt; omega⟩ := by
  show ∑ a : Fin (256 + 128), f a = _
  rw [Fin.sum_univ_add, sum256]
  rfl

/-! ## Arrays: rows of a table, a weight as its rows, a bias as a row -/

/-- Row `i` of a table with 128 columns. -/
def row {R : Nat} (x : (⟨2, ![R, 128]⟩ : Shape).Idx → EReal) (i : Fin R) : Row := fun a => x (ix2 i a)
/-- A weight with 128 columns, by rows. -/
def mat {K : Nat} (w : (⟨2, ![K, 128]⟩ : Shape).Idx → EReal) : Fin K → Row := fun k j => w (ix2 k j)
/-- A vector of 128 entries as a row. -/
def vec (b : (⟨1, ![128]⟩ : Shape).Idx → EReal) : Row := fun j => b (ix1 j)

/-- The messages of all edges: row `i` is the message of edge `i` from the gathered sender and receiver rows. -/
def msgArr {R : Nat} (send recv edge : (⟨2, ![R, 128]⟩ : Shape).Idx → EReal) (W1 : (⟨2, ![384, 128]⟩ : Shape).Idx → EReal)
    (b1 : (⟨1, ![128]⟩ : Shape).Idx → EReal) (W2 : (⟨2, ![128, 128]⟩ : Shape).Idx → EReal)
    (b2 g b : (⟨1, ![128]⟩ : Shape).Idx → EReal) : (⟨2, ![R, 128]⟩ : Shape).Idx → EReal :=
  fun i => edgeMsg (row send (i 0)) (row recv (i 0)) (row edge (i 0)) (mat W1) (vec b1) (mat W2) (vec b2) (vec g) (vec b) (i 1)

/-- The new edge table: message plus old row. -/
def edgesArr {R : Nat} (send recv edge : (⟨2, ![R, 128]⟩ : Shape).Idx → EReal) (W1 : (⟨2, ![384, 128]⟩ : Shape).Idx → EReal)
    (b1 : (⟨1, ![128]⟩ : Shape).Idx → EReal) (W2 : (⟨2, ![128, 128]⟩ : Shape).Idx → EReal)
    (b2 g b : (⟨1, ![128]⟩ : Shape).Idx → EReal) : (⟨2, ![R, 128]⟩ : Shape).Idx → EReal :=
  fun i => msgArr send recv edge W1 b1 W2 b2 g b i + edge i

/-- The new node table from the old one and the per-node sums of messages. -/
def nodesArr {R : Nat} (node agg : (⟨2, ![R, 128]⟩ : Shape).Idx → EReal) (W1 : (⟨2, ![256, 128]⟩ : Shape).Idx → EReal)
    (b1 : (⟨1, ![128]⟩ : Shape).Idx → EReal) (W2 : (⟨2, ![128, 128]⟩ : Shape).Idx → EReal)
    (b2 g b : (⟨1, ![128]⟩ : Shape).Idx → EReal) : (⟨2, ![R, 128]⟩ : Shape).Idx → EReal :=
  fun i => nodeLn (row node (i 0)) (row agg (i 0)) (mat W1) (vec b1) (mat W2) (vec b2) (vec g) (vec b) (i 1) + node i

theorem msgArr_ix2 {R : Nat} (send recv edge : (⟨2, ![R, 128]⟩ : Shape).Idx → EReal) (W1 : (⟨2, ![384, 128]⟩ : Shape).Idx → EReal)
    (b1 : (⟨1, ![128]⟩ : Shape).Idx → EReal) (W2 : (⟨2, ![128, 128]⟩ : Shape).Idx → EReal)
    (b2 g b : (⟨1, ![128]⟩ : Shape).Idx → EReal) (i : Fin R) (q : Fin 128) :
    msgArr send recv edge W1 b1 W2 b2 g b (ix2 i q)
      = edgeMsg (row send i) (row recv i) (row edge i) (mat W1) (vec b1) (mat W2) (vec b2) (vec g) (vec b) q := rfl

theorem nodesArr_ix2 {R : Nat} (node agg : (⟨2, ![R, 128]⟩ : Shape).Idx → EReal) (W1 : (⟨2, ![256, 128]⟩ : Shape).Idx → EReal)
    (b1 : (⟨1, ![128]⟩ : Shape).Idx → EReal) (W2 : (⟨2, ![128, 128]⟩ : Shape).Idx → EReal)
    (b2 g b : (⟨1, ![128]⟩ : Shape).Idx → EReal) (i : Fin R) (q : Fin 128) :
    nodesArr node agg W1 b1 W2 b2 g b (ix2 i q)
      = nodeLn (row node i) (row agg i) (mat W1) (vec b1) (mat W2) (vec b2) (vec g) (vec b) q + node (ix2 i q) := rfl

end Cert.Spec

end
-- ==== Proof.KPay0.lean ====
/-
  The edge kernel's body on one block of 4000 edges, read at one entry (p, q): the value it stores as the message is the
  layer-normalised perceptron output of row p of the three input blocks, and the value it stores as the new edge row is
  that plus the old edge entry. (The body is row-local: entry (p, q) of each store depends on row p of the blocks only.)

  How it goes. Each non-pointwise operation is read at an entry first: a block product accumulated into zero is a sum
  over the 128 shared coordinates; a cut of the 384-row weight reads the weight 0, 128 or 256 rows further down; a
  128-vector repeated down the rows reads the vector at the column; a sum along the columns at row p is the sum of
  that row, kept as a one-column table and repeated across the columns. Everything else (sums, differences, products,
  quotients, the rectifier, the reciprocal square root) acts entry by entry. With these readings the perceptron's
  output at (p, q) is the specification's second layer on the specification's hidden row; the column of means and the
  column of squared deviations are the specification's mean and the numerator of its variance; and the last
  payload is the layer normalisation written out.
-/
import proofs.«413768_j28114855920032_3_alg».proof.Proof.Gen.KernelIdeal.Skeleton
import proofs.«413768_j28114855920032_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay0

open Cert.KernelIdeal Cert.KernelIdeal.Gen Idealize.ShloMosaic Idealize.ShloMosaic.ValueIdx

/-! ## The block product read at an entry -/

/-- The dot's record: rows of the left operand against rows of the right operand, contracting the left's columns. -/
abbrev DD : DotDims S4000x128 S128x128 S4000x128 := dot_S4000x128_S128x128_S4000x128_1_0_0_1_n_n

/-- The left operand is read at the output's row … -/
theorem lhs_ax0 (i : S4000x128.Idx) (c : DD.contr.Idx) : (DD.lhsIdx i c 0).val = (i 0).val := by
  unfold DotDims.lhsIdx
  rw [dif_neg (show ¬(0 : Fin S4000x128.rank) ∈ DD.lhsBatch by decide), dif_pos (show (0 : Fin S4000x128.rank) ∈ DD.lhsNonContracting by decide)]
  rfl

/-- … and at the contraction coordinate as its column. -/
theorem lhs_ax1 (i : S4000x128.Idx) (c : DD.contr.Idx) : (DD.lhsIdx i c 1).val = (c ⟨0, by decide⟩).val :=
  DD.lhsIdx_val_of_single rfl i c

/-- The right operand is read at the contraction coordinate as its row … -/
theorem rhs_ax0 (i : S4000x128.Idx) (c : DD.contr.Idx) : (DD.rhsIdx i c 0).val = (c ⟨0, by decide⟩).val :=
  DD.rhsIdx_val_of_single rfl i c

/-- … and at the output's column. -/
theorem rhs_ax1 (i : S4000x128.Idx) (c : DD.contr.Idx) : (DD.rhsIdx i c 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- A product of a 4000×128 block with a 128×128 weight, accumulated into zero, at (p, k): the sum over the 128 shared
    coordinates of the row's entries times the weight's column entries. -/
theorem mm_apply {φ₁ φ₂ : FTy} (l : FVec Ideal S4000x128 φ₁) (r : FVec Ideal S128x128 φ₂) (p : Fin 4000) (k : Fin 128) :
    matmul (F := Ideal) dot_S4000x128_S128x128_S4000x128_1_0_0_1_n_n none l r (constant S4000x128 .f32 0x00000000#32) (ix2 p k)
      = ∑ a : Fin 128, l (ix2 p a) * r (ix2 a k) := by
  simp only [matmul]
  rw [Ideal.matmul_constant_zero_apply, ← Equiv.sum_comp (ValueIdx.contrEquiv1 DD 128 rfl rfl).symm]
  refine Finset.sum_congr rfl fun a _ => ?_
  have ha := ValueIdx.contrEquiv1_symm_val DD 128 rfl rfl a
  have el : DD.lhsIdx (ix2 p k) ((ValueIdx.contrEquiv1 DD 128 rfl rfl).symm a) = ix2 p a := funext fun x => Fin.ext (by
    match x with
    | ⟨0, _⟩ => exact lhs_ax0 _ _
    | ⟨1, _⟩ => exact (lhs_ax1 _ _).trans ha)
  have er : DD.rhsIdx (ix2 p k) ((ValueIdx.contrEquiv1 DD 128 rfl rfl).symm a) = ix2 a k := funext fun x => Fin.ext (by
    match x with
    | ⟨0, _⟩ => exact (rhs_ax0 _ _).trans ha
    | ⟨1, _⟩ => exact rhs_ax1 _ _)
  rw [el, er]

/-! ## Layout operations of the body read at an entry -/

/-- A 128-vector viewed as one row and repeated down 4000 rows: entry (p, k) is the vector's entry k. -/
theorem rowvec_apply {α : Type} (b : S128.Idx → α) (h₁ : S128.ShapeCasts S1x128) (h₂ : S1x128.Broadcasts S4000x128)
    (p : Fin 4000) (k : Fin 128) :
    broadcastTo S4000x128 (shapeCast S1x128 b h₁) h₂ (ix2 p k) = b (ix1 k) :=
  (broadcastTo_1b_ab_apply _ h₂ p k).trans (shapeCast_a_1a_apply b h₁ 0 k)

/-- A 4000-vector viewed as one column: entry (p, u) is the vector's entry p. -/
theorem col_apply {α : Type} (x : S4000.Idx → α) (h : S4000.ShapeCasts S4000x1) (p : Fin 4000) (u : Fin 1) :
    shapeCast S4000x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column repeated across 128 columns: entry (p, q) is the column's entry p. -/
theorem colbc_apply {α : Type} (v : S4000x1.Idx → α) (h : S4000x1.Broadcasts S4000x128) (p : Fin 4000) (q : Fin 128) :
    broadcastTo S4000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The sum along the columns, at row p: the sum of the 128 entries of that row. -/
theorem rowsum_apply (v : FVec Ideal S4000x128 .f32) (p : Fin 4000) :
    multiReduction (F := Ideal) .add [1] S4000 v 0x00000000#32 reduces_S4000x128_S4000 (.inl rfl) rfl (ix1 p)
      = ∑ q : Fin 128, v (ix2 p q) := by
  refine (Ideal.multiReduction_add_single v _ reduces_S4000x128_S4000 (.inl rfl) rfl (ix1 p)).trans ?_
  refine Finset.sum_congr rfl fun q _ => congrArg v (funext fun ax => ?_)
  match ax with
  | ⟨0, _⟩ => rfl
  | ⟨1, _⟩ => rfl

/-- The three cuts of the 384-row weight, each read at an entry. -/
theorem cut0_apply {α : Type} (w : S384x128.Idx → α) (h : S384x128.Slices ![0, 0] S128x128) (a k : Fin 128) :
    extractStridedSlice S128x128 ![0, 0] w h (ix2 a k) = w (ix2 ⟨a.val, by have := a.isLt; omega⟩ k) :=
  slice2_axis0_apply 0 w h a k _ (Nat.zero_add _).symm

theorem cut128_apply {α : Type} (w : S384x128.Idx → α) (h : S384x128.Slices ![128, 0] S128x128) (a k : Fin 128) :
    extractStridedSlice S128x128 ![128, 0] w h (ix2 a k) = w (ix2 ⟨128 + a.val, by have := a.isLt; omega⟩ k) :=
  slice2_axis0_apply 128 w h a k _ rfl

theorem cut256_apply {α : Type} (w : S384x128.Idx → α) (h : S384x128.Slices ![256, 0] S128x128) (a k : Fin 128) :
    extractStridedSlice S128x128 ![256, 0] w h (ix2 a k) = w (ix2 ⟨256 + a.val, by have := a.isLt; omega⟩ k) :=
  slice2_axis0_apply 256 w h a k _ rfl

/-! ## The perceptron's output before normalisation -/

/-- The value both statistics and the normalisation read: at (p, q), the second layer applied to the rectified hidden
    row of row p — the three block products against the three cuts of the first weight, plus the first bias. -/
theorem pay3_apply (x0 x1 : Vec Ideal S4000x128 .bf16) (x2 : Vec Ideal S4000x128 .f32) (x3 : Vec Ideal S384x128 .bf16)
    (x4 : Vec Ideal S128 .f32) (x5 : Vec Ideal S128x128 .bf16) (x6 : Vec Ideal S128 .f32) (p : Fin 4000) (q : Fin 128) :
    k0_pay3 (F := Ideal) x0 x1 x2 x3 x4 x5 x6 (ix2 p q)
      = Cert.Spec.layer2 (Cert.Spec.hid3 (Cert.Spec.row x0 p) (Cert.Spec.row x1 p) (Cert.Spec.row x2 p) (Cert.Spec.mat x3) (Cert.Spec.vec x4))
          (Cert.Spec.mat x5) (Cert.Spec.vec x6) q := by
  unfold k0_pay3
  simp only [shapeCast_self]
  simp only [addf_apply, mm_apply, rowvec_apply, truncf_apply, maximumf_apply, broadcast_apply, cut0_apply, cut128_apply, cut256_apply]
  rfl

/-- The perceptron's output on row p of the three blocks. -/
abbrev out (x0 x1 : Vec Ideal S4000x128 .bf16) (x2 : Vec Ideal S4000x128 .f32) (x3 : Vec Ideal S384x128 .bf16)
    (x4 : Vec Ideal S128 .f32) (x5 : Vec Ideal S128x128 .bf16) (x6 : Vec Ideal S128 .f32) (p : Fin 4000) : Cert.Spec.Row :=
  Cert.Spec.layer2 (Cert.Spec.hid3 (Cert.Spec.row x0 p) (Cert.Spec.row x1 p) (Cert.Spec.row x2 p) (Cert.Spec.mat x3) (Cert.Spec.vec x4))
    (Cert.Spec.mat x5) (Cert.Spec.vec x6)

/-! ## The row statistics -/

/-- The column of means: at row p, the mean of the perceptron's output row. -/
theorem pay4_apply (x0 x1 : Vec Ideal S4000x128 .bf16) (x2 : Vec Ideal S4000x128 .f32) (x3 : Vec Ideal S384x128 .bf16)
    (x4 : Vec Ideal S128 .f32) (x5 : Vec Ideal S128x128 .bf16) (x6 : Vec Ideal S128 .f32) (p : Fin 4000) (u : Fin 1) :
    k0_pay4 (F := Ideal) x0 x1 x2 x3 x4 x5 x6 (ix2 p u) = Cert.Spec.mean (out x0 x1 x2 x3 x4 x5 x6 p) := by
  unfold k0_pay4
  simp only [divf_apply, col_apply, broadcast_apply]
  rw [rowsum_apply]
  simp only [pay3_apply]
  rfl

/-- The column of squared deviations: at row p, the sum of the squares of the centred output row. -/
theorem pay5_apply (x0 x1 : Vec Ideal S4000x128 .bf16) (x2 : Vec Ideal S4000x128 .f32) (x3 : Vec Ideal S384x128 .bf16)
    (x4 : Vec Ideal S128 .f32) (x5 : Vec Ideal S128x128 .bf16) (x6 : Vec Ideal S128 .f32) (p : Fin 4000) (u : Fin 1) :
    k0_pay5 (F := Ideal) x0 x1 x2 x3 x4 x5 x6 (ix2 p u)
      = ∑ q' : Fin 128, Cert.Spec.cen (out x0 x1 x2 x3 x4 x5 x6 p) q' * Cert.Spec.cen (out x0 x1 x2 x3 x4 x5 x6 p) q' := by
  unfold k0_pay5
  simp only [col_apply]
  rw [rowsum_apply]
  simp only [mulf_apply, subf_apply, colbc_apply, pay3_apply, pay4_apply]
  rfl

/-- The reciprocal square root read at an entry. -/
theorem rsqrt_apply {s : Shape} {φ : FTy} (a : FVec Ideal s φ) (i : s.Idx) : rsqrt a i = Ideal.rsqrt (a i) := rfl

/-- The message store's value at (p, q). -/
theorem msg_apply (x0 x1 : Vec Ideal S4000x128 .bf16) (x2 : Vec Ideal S4000x128 .f32) (x3 : Vec Ideal S384x128 .bf16)
    (x4 : Vec Ideal S128 .f32) (x5 : Vec Ideal S128x128 .bf16) (x6 x7 x8 : Vec Ideal S128 .f32) (p : Fin 4000) (q : Fin 128) :
    k0_pay1 (F := Ideal) (k0_pay3 x0 x1 x2 x3 x4 x5 x6) (k0_pay4 x0 x1 x2 x3 x4 x5 x6) (k0_pay5 x0 x1 x2 x3 x4 x5 x6) x7 x8 (ix2 p q)
      = Cert.Spec.edgeMsg (Cert.Spec.row x0 p) (Cert.Spec.row x1 p) (Cert.Spec.row x2 p) (Cert.Spec.mat x3) (Cert.Spec.vec x4)
          (Cert.Spec.mat x5) (Cert.Spec.vec x6) (Cert.Spec.vec x7) (Cert.Spec.vec x8) q := by
  unfold k0_pay1
  simp only [addf_apply, mulf_apply, subf_apply, divf_apply, rsqrt_apply, rowvec_apply, colbc_apply, broadcast_apply,
    pay3_apply, pay4_apply, pay5_apply]
  rfl

/-- The new-edge store's value at (p, q): the message plus the old edge entry. -/
theorem new_apply (x0 x1 : Vec Ideal S4000x128 .bf16) (x2 : Vec Ideal S4000x128 .f32) (x3 : Vec Ideal S384x128 .bf16)
    (x4 : Vec Ideal S128 .f32) (x5 : Vec Ideal S128x128 .bf16) (x6 x7 x8 : Vec Ideal S128 .f32) (p : Fin 4000) (q : Fin 128) :
    k0_pay2 (F := Ideal) x2 (k0_pay3 x0 x1 x2 x3 x4 x5 x6) (k0_pay4 x0 x1 x2 x3 x4 x5 x6) (k0_pay5 x0 x1 x2 x3 x4 x5 x6) x7 x8 (ix2 p q)
      = Cert.Spec.edgeMsg (Cert.Spec.row x0 p) (Cert.Spec.row x1 p) (Cert.Spec.row x2 p) (Cert.Spec.mat x3) (Cert.Spec.vec x4)
          (Cert.Spec.mat x5) (Cert.Spec.vec x6) (Cert.Spec.vec x7) (Cert.Spec.vec x8) q + x2 (ix2 p q) := by
  unfold k0_pay2
  exact congrArg (· + x2 (ix2 p q)) (msg_apply x0 x1 x2 x3 x4 x5 x6 x7 x8 p q)

end Cert.KernelIdeal.Pay0

end
-- ==== Proof.KPay1.lean ====
/-
  The node kernel's body on one block of 2000 nodes, read at one entry (p, q): the layer-normalised perceptron output
  of row p of the node block and of the summed-message block, plus the old node entry.

  The plan. The body computes, for the whole block at once, y = max(n·W1[0:128] + a·W1[128:256] + b1, 0)·W2 + b2, then
  the row means of y, the centred block y − mean, the row means of its square (the variance), and finally
  (y − mean) · (var + ε)^(−1/2) · g + b + n. Each of the block operations is read at one entry: a matrix product is a sum
  over the 128 shared coordinates, a sum along the lanes is a sum over the 128 columns of that row, a vector spread over
  the rows reads its own entry, a per-row column spread over the lanes reads that row's entry. What is left is the
  specification's formula for row p, entry q.
-/
import proofs.«413768_j28114855920032_3_alg».proof.Proof.Gen.KernelIdeal.Skeleton
import proofs.«413768_j28114855920032_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay1

open Cert.KernelIdeal Cert.KernelIdeal.Gen Idealize.ShloMosaic Idealize.ShloMosaic.ValueIdx

/-! ## The product's operand indices

The product contracts axis 1 of the left operand with axis 0 of the right one. At output entry `i` and contraction
index `c` the left operand is read at (i 0, c) and the right one at (c, i 1): four coordinate facts. -/

/-- The left operand's row is the output's row. -/
theorem lhs_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contraction coordinate. -/
theorem lhs_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c

/-- The right operand's row is the contraction coordinate. -/
theorem rhs_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c

/-- The right operand's column is the output's column. -/
theorem rhs_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A 2000×128 block times a 128×128 weight, accumulated into zero, at (p, k): the sum over the 128 shared coordinates
    of the row's entries times the weight's column entries. The contraction index has one coordinate, so the sum over it
    is re-indexed by that coordinate. -/
theorem mm_apply {φ₁ φ₂ : FTy} (l : FVec Ideal S2000x128 φ₁) (r : FVec Ideal S128x128 φ₂) (p : Fin 2000) (k : Fin 128) :
    matmul (F := Ideal) dot_S2000x128_S128x128_S2000x128_1_0_0_1_n_n none l r (constant S2000x128 .f32 0x00000000#32) (ix2 p k)
      = ∑ a : Fin 128, l (ix2 p a) * r (ix2 a k) := by
  simp only [matmul]
  rw [Ideal.matmul_constant_zero_apply,
    ← Equiv.sum_comp (ValueIdx.contrEquiv1 dot_S2000x128_S128x128_S2000x128_1_0_0_1_n_n 128 rfl rfl).symm]
  refine Finset.sum_congr rfl fun a _ => ?_
  have hk := ValueIdx.contrEquiv1_symm_val dot_S2000x128_S128x128_S2000x128_1_0_0_1_n_n 128 rfl rfl a
  have el : dot_S2000x128_S128x128_S2000x128_1_0_0_1_n_n.lhsIdx (ix2 p k) ((ValueIdx.contrEquiv1 dot_S2000x128_S128x128_S2000x128_1_0_0_1_n_n 128 rfl rfl).symm a) = ix2 p a :=
    funext fun c => Fin.ext (by
      match c with
      | ⟨0, _⟩ => exact lhs_0 _ _
      | ⟨1, _⟩ => exact (lhs_1 _ _).trans hk)
  have er : dot_S2000x128_S128x128_S2000x128_1_0_0_1_n_n.rhsIdx (ix2 p k) ((ValueIdx.contrEquiv1 dot_S2000x128_S128x128_S2000x128_1_0_0_1_n_n 128 rfl rfl).symm a) = ix2 a k :=
    funext fun c => Fin.ext (by
      match c with
      | ⟨0, _⟩ => exact (rhs_0 _ _).trans hk
      | ⟨1, _⟩ => exact rhs_1 _ _)
  rw [el, er]

/-! ## The layout operations of the body read at an entry -/

/-- A vector of 128 entries viewed as one row and spread over the 2000 rows: entry (p, k) is the vector's entry k. -/
theorem bias_apply (v : Vec Ideal S128 .f32) (p : Fin 2000) (k : Fin 128) :
    broadcastTo S2000x128 (shapeCast S1x128 v shapeCasts_S128_S1x128) broadcasts_S1x128_S2000x128 (ix2 p k) = v (ix1 k) :=
  (broadcastTo_1b_ab_apply _ _ p k).trans (shapeCast_a_1a_apply v _ 0 k)

/-- The first 128 rows of the 256-row weight: entry (a, k) of the cut is entry (a, k) of the weight. -/
theorem sliceLo_apply (w : FVec Ideal S256x128 .bf16) (a k : Fin 128) :
    extractStridedSlice S128x128 ![0, 0] w slices_S256x128_o0_0_S128x128 (ix2 a k)
      = w (ix2 ⟨a.val, by have := a.isLt; omega⟩ k) :=
  slice2_axis0_apply 0 w _ a k _ (Nat.zero_add _).symm

/-- The last 128 rows of the 256-row weight: entry (a, k) of the cut is entry (128 + a, k) of the weight. -/
theorem sliceHi_apply (w : FVec Ideal S256x128 .bf16) (a k : Fin 128) :
    extractStridedSlice S128x128 ![128, 0] w slices_S256x128_o128_0_S128x128 (ix2 a k)
      = w (ix2 ⟨128 + a.val, by have := a.isLt; omega⟩ k) :=
  slice2_axis0_apply 128 w _ a k _ rfl

/-- A sum along the lanes, at row p: the sum over the 128 columns of the block's entries in that row. The reduced index
    with a column put back has coordinates (p, column). -/
theorem rowsum_apply (v : FVec Ideal S2000x128 .f32) (p : Fin 2000) :
    multiReduction (F := Ideal) .add [1] S2000 v 0x00000000#32 reduces_S2000x128_S2000 (.inl rfl) rfl (ix1 p)
      = ∑ q' : Fin 128, v (ix2 p q') := by
  refine (Ideal.multiReduction_add_single v _ reduces_S2000x128_S2000 (.inl rfl) rfl (ix1 p)).trans ?_
  refine Finset.sum_congr rfl fun q' _ => congrArg v (funext fun c => Fin.ext ?_)
  match c with
  | ⟨0, _⟩ => rfl
  | ⟨1, _⟩ => rfl

/-- A vector of 2000 entries viewed as a column: entry (p, 0) is the vector's entry p (row-major position p·1 + 0 = p). -/
theorem colCast_apply (v : FVec Ideal S2000 .f32) (p : Fin 2000) (u : Fin 1) :
    shapeCast S2000x1 v shapeCasts_S2000_S2000x1 (ix2 p u) = v (ix1 p) :=
  shapeCast_apply v _ _ _ (by
    have hu : u.val = 0 := by omega
    rw [Shape.rowMajor_val_two, Shape.rowMajor_val_one]
    show p.val = p.val * 1 + u.val
    rw [hu, Nat.mul_one, Nat.add_zero])

/-- A column of 2000 entries spread over the 128 lanes: entry (p, q) is the column's entry p. -/
theorem colBcast_apply (v : FVec Ideal S2000x1 .f32) (p : Fin 2000) (q : Fin 128) :
    broadcastTo S2000x128 v broadcasts_S2000x1_S2000x128 (ix2 p q) = v (ix2 p (0 : Fin 1)) := by
  refine broadcastTo_apply v _ (ix2 p q) (ix2 p (0 : Fin 1)) fun ax => ?_
  match ax with
  | ⟨0, _⟩ =>
    show p.val = if (2000 : Nat) = 1 then 0 else p.val
    rw [if_neg (by decide)]
  | ⟨1, _⟩ => rfl

/-! ## The perceptron and its row statistics -/

/-- Row p of the perceptron's output: the second layer on the rectified first layer of (node row p, message-sum row p). -/
def yrow (x0 x1 : Vec Ideal S2000x128 .f32) (x2 : Vec Ideal S256x128 .bf16) (x3 : Vec Ideal S128 .f32)
    (x4 : Vec Ideal S128x128 .bf16) (x5 : Vec Ideal S128 .f32) (p : Fin 2000) : Cert.Spec.Row :=
  Cert.Spec.layer2 (Cert.Spec.hid2 (Cert.Spec.row x0 p) (Cert.Spec.row x1 p) (Cert.Spec.mat x2) (Cert.Spec.vec x3))
    (Cert.Spec.mat x4) (Cert.Spec.vec x5)

/-- The perceptron's output block at (p, q). The first layer is the sum of two products, the node row with the weight's
    first 128 rows and the message-sum row with its last 128 rows, plus the bias; the casts to the narrower format and to the
    same shape change nothing over the extended reals; the rectifier is the maximum with the word 0.0; the second layer
    is one more product plus its bias. -/
theorem pay2_apply (x0 x1 : Vec Ideal S2000x128 .f32) (x2 : Vec Ideal S256x128 .bf16) (x3 : Vec Ideal S128 .f32)
    (x4 : Vec Ideal S128x128 .bf16) (x5 : Vec Ideal S128 .f32) (p : Fin 2000) (q : Fin 128) :
    k1_pay2 (F := Ideal) x0 x1 x2 x3 x4 x5 (ix2 p q) = yrow x0 x1 x2 x3 x4 x5 p q := by
  unfold k1_pay2 yrow
  rw [shapeCast_self x2, shapeCast_self x1, shapeCast_self x4]
  show _ + _ = _ + _
  refine congrArg₂ (· + ·) ?_ (bias_apply x5 p q)
  refine (mm_apply (φ₁ := .bf16) (φ₂ := .bf16) _ _ p q).trans (Finset.sum_congr rfl fun k _ => ?_)
  refine congrArg₂ (· * ·) ?_ rfl
  show max (_ + _ + _) _ = max _ _
  refine congrArg₂ max ?_ rfl
  refine congrArg₂ (· + ·) (congrArg₂ (· + ·) ?_ ?_) (bias_apply x3 p k)
  · refine (mm_apply (φ₁ := .bf16) (φ₂ := .bf16) _ _ p k).trans (Finset.sum_congr rfl fun a _ => ?_)
    exact congrArg₂ (· * ·) rfl (sliceLo_apply x2 a k)
  · refine (mm_apply (φ₁ := .bf16) (φ₂ := .bf16) _ _ p k).trans (Finset.sum_congr rfl fun a _ => ?_)
    exact congrArg₂ (· * ·) rfl (sliceHi_apply x2 a k)

/-- The column of row means at row p: the row's sum divided by 128. -/
theorem pay3_apply (x0 x1 : Vec Ideal S2000x128 .f32) (x2 : Vec Ideal S256x128 .bf16) (x3 : Vec Ideal S128 .f32)
    (x4 : Vec Ideal S128x128 .bf16) (x5 : Vec Ideal S128 .f32) (p : Fin 2000) (u : Fin 1) :
    k1_pay3 (F := Ideal) x0 x1 x2 x3 x4 x5 (ix2 p u) = Cert.Spec.mean (yrow x0 x1 x2 x3 x4 x5 p) := by
  unfold k1_pay3 Cert.Spec.mean
  show Ideal.div _ _ = Ideal.div _ _
  refine congrArg₂ Ideal.div ?_ rfl
  refine (colCast_apply _ p u).trans ?_
  refine (rowsum_apply _ p).trans (Finset.sum_congr rfl fun q' _ => ?_)
  exact pay2_apply x0 x1 x2 x3 x4 x5 p q'

/-- The centred block at (p, q): the row's entry minus the row's mean. -/
theorem pay5_apply (x0 x1 : Vec Ideal S2000x128 .f32) (x2 : Vec Ideal S256x128 .bf16) (x3 : Vec Ideal S128 .f32)
    (x4 : Vec Ideal S128x128 .bf16) (x5 : Vec Ideal S128 .f32) (p : Fin 2000) (q : Fin 128) :
    k1_pay5 (F := Ideal) x0 x1 x2 x3 x4 x5 (ix2 p q) = Cert.Spec.cen (yrow x0 x1 x2 x3 x4 x5 p) q := by
  unfold k1_pay5 Cert.Spec.cen
  show _ - _ = _ - _
  refine congrArg₂ (· - ·) (pay2_apply x0 x1 x2 x3 x4 x5 p q) ?_
  exact (colBcast_apply _ p q).trans (pay3_apply x0 x1 x2 x3 x4 x5 p 0)

/-- The column of row variances at row p: the sum of the squared centred entries of the row, divided by 128. The body
    forms the centred block a second time, by the same term, before squaring it. -/
theorem pay4_apply (x0 x1 : Vec Ideal S2000x128 .f32) (x2 : Vec Ideal S256x128 .bf16) (x3 : Vec Ideal S128 .f32)
    (x4 : Vec Ideal S128x128 .bf16) (x5 : Vec Ideal S128 .f32) (p : Fin 2000) (u : Fin 1) :
    k1_pay4 (F := Ideal) x0 x1 x2 x3 x4 x5 (ix2 p u) = Cert.Spec.var (yrow x0 x1 x2 x3 x4 x5 p) := by
  unfold k1_pay4 Cert.Spec.var
  show Ideal.div _ _ = Ideal.div _ _
  refine congrArg₂ Ideal.div ?_ rfl
  refine (colCast_apply _ p u).trans ?_
  refine (rowsum_apply _ p).trans (Finset.sum_congr rfl fun q' _ => ?_)
  have h5 := pay5_apply x0 x1 x2 x3 x4 x5 p q'
  unfold k1_pay5 at h5
  show _ * _ = _ * _
  exact congrArg₂ (· * ·) h5 h5

/-! ## The stored value -/

/-- The store's value at (p, q). -/
theorem node_apply (x0 x1 : Vec Ideal S2000x128 .f32) (x2 : Vec Ideal S256x128 .bf16) (x3 : Vec Ideal S128 .f32)
    (x4 : Vec Ideal S128x128 .bf16) (x5 x6 x7 : Vec Ideal S128 .f32) (p : Fin 2000) (q : Fin 128) :
    k1_pay1 (F := Ideal) x0 (k1_pay4 x0 x1 x2 x3 x4 x5) (k1_pay5 x0 x1 x2 x3 x4 x5) (k1_pay6 (F := Ideal)) x6 x7 (ix2 p q)
      = Cert.Spec.nodeLn (Cert.Spec.row x0 p) (Cert.Spec.row x1 p) (Cert.Spec.mat x2) (Cert.Spec.vec x3) (Cert.Spec.mat x4)
          (Cert.Spec.vec x5) (Cert.Spec.vec x6) (Cert.Spec.vec x7) q + x0 (ix2 p q) := by
  unfold k1_pay1
  -- the residual: the old node entry is added last on both sides
  show _ + _ = _ + _
  refine congrArg₂ (· + ·) ?_ rfl
  -- centred entry · (variance + ε)^(−1/2) · scale + shift, factor by factor
  show _ * _ * _ + _ = Cert.Spec.lnorm (yrow x0 x1 x2 x3 x4 x5 p) (Cert.Spec.vec x6) (Cert.Spec.vec x7) q
  unfold Cert.Spec.lnorm
  refine congrArg₂ (· + ·) (congrArg₂ (· * ·) (congrArg₂ (· * ·) (pay5_apply x0 x1 x2 x3 x4 x5 p q) ?_)
    (bias_apply x6 p q)) (bias_apply x7 p q)
  -- the reciprocal root is taken on the column of variances plus the column of ε, then spread over the lanes
  refine (colBcast_apply _ p q).trans ?_
  show Ideal.rsqrt (_ + _) = Ideal.rsqrt (_ + _)
  exact congrArg Ideal.rsqrt (congrArg₂ (· + ·) (pay4_apply x0 x1 x2 x3 x4 x5 p 0) rfl)

end Cert.KernelIdeal.Pay1

end
-- ==== Proof.KBlocks.lean ====
/-
  From blocks to arrays. Each grid point of the edge call writes back rows 4000·t … 4000·t + 3999 of its two outputs,
  and the 150 points cover all 600000 rows; each of the node call's 25 points writes back rows 2000·t … 2000·t + 1999
  of its output. So after a call each output array is, row by row, the body's row function of the input arrays as the
  call finds them.
-/
import proofs.«413768_j28114855920032_3_alg».proof.Proof.Gen.KernelIdeal.Frame
import proofs.«413768_j28114855920032_3_alg».proof.Proof.KPay0
import proofs.«413768_j28114855920032_3_alg».proof.Proof.KPay1
import proofs.«413768_j28114855920032_3_alg».proof.Proof.Spec
import Idealize.ShloMosaic.Lib.ValueIdx
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## Zero offsets, however spelt -/

theorem zero2 : (![0, 0] : Fin 2 → Nat) = fun _ => 0 := funext fun a => by fin_cases a <;> rfl
theorem zero1 : (![0] : Fin 1 → Nat) = fun _ => 0 := funext fun a => by fin_cases a <;> rfl

/-! ## The edge call -/

/-- The index maps of the edge call, decided over its 150 points: a row window's block index is the point on the row
    axis and 0 on the feature axis; a weight's or bias's one block has index 0. -/
theorem edgeIdx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 1) = 0
    ∧ win0_8.index t (0 : Fin 1) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- Row `p` of point `t`'s block is a row of the array: 4000 rows a block, 150 blocks. -/
theorem edgeRow_lt (t : Fin cfg0.N) (p : Fin 4000) : 4000 * t.val + p.val < 600000 := by
  have ht : t.val < 150 := t.isLt
  have hp : p.val < 4000 := p.isLt
  omega

/-- Row `p` of the sender block at point `t` is row 4000·t + p of the gathered senders. -/
theorem row0_0 (c : Dev nD) (t : Fin cfg0.N) (p : Fin 4000) :
    Cert.Spec.row (iblk0 (F := Ideal) V c 0 t) p = Cert.Spec.row (V c main_v1) ⟨4000 * t.val + p.val, edgeRow_lt t p⟩ := by
  funext a
  show V c main_v1 (((cfg0.win 0).blk t).view.emb (ix2 p a)) = V c main_v1 (ix2 ⟨4000 * t.val + p.val, edgeRow_lt t p⟩ a)
  congr 1
  funext d; apply Fin.ext
  match d with
  | ⟨0, _⟩ => show win0_0.index t (0 : Fin 2) * 4000 + 1 * p.val = 4000 * t.val + p.val; rw [(edgeIdx t).1]; omega
  | ⟨1, _⟩ => show win0_0.index t (1 : Fin 2) * 128 + 1 * a.val = a.val; rw [(edgeIdx t).2.1]; omega

/-- Row `p` of the receiver block at point `t` is row 4000·t + p of the gathered receivers. -/
theorem row0_1 (c : Dev nD) (t : Fin cfg0.N) (p : Fin 4000) :
    Cert.Spec.row (iblk0 (F := Ideal) V c 1 t) p = Cert.Spec.row (V c main_v2) ⟨4000 * t.val + p.val, edgeRow_lt t p⟩ := by
  funext a
  show V c main_v2 (((cfg0.win 1).blk t).view.emb (ix2 p a)) = V c main_v2 (ix2 ⟨4000 * t.val + p.val, edgeRow_lt t p⟩ a)
  congr 1
  funext d; apply Fin.ext
  match d with
  | ⟨0, _⟩ => show win0_1.index t (0 : Fin 2) * 4000 + 1 * p.val = 4000 * t.val + p.val; rw [(edgeIdx t).2.2.1]; omega
  | ⟨1, _⟩ => show win0_1.index t (1 : Fin 2) * 128 + 1 * a.val = a.val; rw [(edgeIdx t).2.2.2.1]; omega

/-- Entry (p, a) of the edge block at point `t` is entry (4000·t + p, a) of the edge table. -/
theorem ent0_2 (c : Dev nD) (t : Fin cfg0.N) (p : Fin 4000) (a : Fin 128) :
    iblk0 (F := Ideal) V c 2 t (ix2 p a) = V c main_arg1 (ix2 ⟨4000 * t.val + p.val, edgeRow_lt t p⟩ a) := by
  show V c main_arg1 (((cfg0.win 2).blk t).view.emb (ix2 p a)) = V c main_arg1 (ix2 ⟨4000 * t.val + p.val, edgeRow_lt t p⟩ a)
  congr 1
  funext d; apply Fin.ext
  match d with
  | ⟨0, _⟩ => show win0_2.index t (0 : Fin 2) * 4000 + 1 * p.val = 4000 * t.val + p.val; rw [(edgeIdx t).2.2.2.2.1]; omega
  | ⟨1, _⟩ => show win0_2.index t (1 : Fin 2) * 128 + 1 * a.val = a.val; rw [(edgeIdx t).2.2.2.2.2.1]; omega

/-- Row `p` of the edge block at point `t` is row 4000·t + p of the edge table. -/
theorem row0_2 (c : Dev nD) (t : Fin cfg0.N) (p : Fin 4000) :
    Cert.Spec.row (iblk0 (F := Ideal) V c 2 t) p = Cert.Spec.row (V c main_arg1) ⟨4000 * t.val + p.val, edgeRow_lt t p⟩ :=
  funext fun a => ent0_2 V c t p a

/-- The first layer's weight is staged whole: its one block is the array. -/
theorem mat0_3 (c : Dev nD) (t : Fin cfg0.N) : Cert.Spec.mat (iblk0 (F := Ideal) V c 3 t) = Cert.Spec.mat (V c main_v3) := by
  funext k a
  show V c main_v3 (((cfg0.win 3).blk t).view.emb (ix2 k a)) = V c main_v3 (ix2 k a)
  congr 1
  funext d; apply Fin.ext
  match d with
  | ⟨0, _⟩ => show win0_3.index t (0 : Fin 2) * 384 + 1 * k.val = k.val; rw [(edgeIdx t).2.2.2.2.2.2.1]; omega
  | ⟨1, _⟩ => show win0_3.index t (1 : Fin 2) * 128 + 1 * a.val = a.val; rw [(edgeIdx t).2.2.2.2.2.2.2.1]; omega

/-- The first layer's bias is staged whole. -/
theorem vec0_4 (c : Dev nD) (t : Fin cfg0.N) : Cert.Spec.vec (iblk0 (F := Ideal) V c 4 t) = Cert.Spec.vec (V c main_arg5) := by
  funext a
  show V c main_arg5 (((cfg0.win 4).blk t).view.emb (ix1 a)) = V c main_arg5 (ix1 a)
  congr 1
  funext d; apply Fin.ext
  match d with
  | ⟨0, _⟩ => show win0_4.index t (0 : Fin 1) * 128 + 1 * a.val = a.val; rw [(edgeIdx t).2.2.2.2.2.2.2.2.1]; omega

/-- The second layer's weight is staged whole. -/
theorem mat0_5 (c : Dev nD) (t : Fin cfg0.N) : Cert.Spec.mat (iblk0 (F := Ideal) V c 5 t) = Cert.Spec.mat (V c main_v4) := by
  funext k a
  show V c main_v4 (((cfg0.win 5).blk t).view.emb (ix2 k a)) = V c main_v4 (ix2 k a)
  congr 1
  funext d; apply Fin.ext
  match d with
  | ⟨0, _⟩ => show win0_5.index t (0 : Fin 2) * 128 + 1 * k.val = k.val; rw [(edgeIdx t).2.2.2.2.2.2.2.2.2.1]; omega
  | ⟨1, _⟩ => show win0_5.index t (1 : Fin 2) * 128 + 1 * a.val = a.val; rw [(edgeIdx t).2.2.2.2.2.2.2.2.2.2.1]; omega

/-- The second layer's bias is staged whole. -/
theorem vec0_6 (c : Dev nD) (t : Fin cfg0.N) : Cert.Spec.vec (iblk0 (F := Ideal) V c 6 t) = Cert.Spec.vec (V c main_arg7) := by
  funext a
  show V c main_arg7 (((cfg0.win 6).blk t).view.emb (ix1 a)) = V c main_arg7 (ix1 a)
  congr 1
  funext d; apply Fin.ext
  match d with
  | ⟨0, _⟩ => show win0_6.index t (0 : Fin 1) * 128 + 1 * a.val = a.val; rw [(edgeIdx t).2.2.2.2.2.2.2.2.2.2.2.1]; omega

/-- The normalisation's scale is staged whole. -/
theorem vec0_7 (c : Dev nD) (t : Fin cfg0.N) : Cert.Spec.vec (iblk0 (F := Ideal) V c 7 t) = Cert.Spec.vec (V c main_arg8) := by
  funext a
  show V c main_arg8 (((cfg0.win 7).blk t).view.emb (ix1 a)) = V c main_arg8 (ix1 a)
  congr 1
  funext d; apply Fin.ext
  match d with
  | ⟨0, _⟩ => show win0_7.index t (0 : Fin 1) * 128 + 1 * a.val = a.val; rw [(edgeIdx t).2.2.2.2.2.2.2.2.2.2.2.2.1]; omega

/-- The normalisation's shift is staged whole. -/
theorem vec0_8 (c : Dev nD) (t : Fin cfg0.N) : Cert.Spec.vec (iblk0 (F := Ideal) V c 8 t) = Cert.Spec.vec (V c main_arg9) := by
  funext a
  show V c main_arg9 (((cfg0.win 8).blk t).view.emb (ix1 a)) = V c main_arg9 (ix1 a)
  congr 1
  funext d; apply Fin.ext
  match d with
  | ⟨0, _⟩ => show win0_8.index t (0 : Fin 1) * 128 + 1 * a.val = a.val; rw [(edgeIdx t).2.2.2.2.2.2.2.2.2.2.2.2.2.1]; omega

/-- Entry (p, q) of the message output's block at point `t` sits at (4000·t + p, q) of the array. -/
theorem emb0_10 (t : Fin cfg0.N) (p : Fin 4000) (q : Fin 128) :
    ((cfg0.win 10).blk t).view.emb (ix2 p q) = ix2 ⟨4000 * t.val + p.val, edgeRow_lt t p⟩ q := by
  funext d; apply Fin.ext
  match d with
  | ⟨0, _⟩ => show win0_10.index t (0 : Fin 2) * 4000 + 1 * p.val = 4000 * t.val + p.val; rw [(edgeIdx t).2.2.2.2.2.2.2.2.2.2.2.2.2.2.2.2.1]; omega
  | ⟨1, _⟩ => show win0_10.index t (1 : Fin 2) * 128 + 1 * q.val = q.val; rw [(edgeIdx t).2.2.2.2.2.2.2.2.2.2.2.2.2.2.2.2.2]; omega

/-- What point `t` writes back to the message array is block `t` of the messages of all edges. -/
theorem flushed0_10 (c : Dev nD) (t : Fin cfg0.N) :
    (dat0 (F := Ideal) V c).flushed 10 t
      = ((cfg0.win 10).blk t).view.read (Elt Ideal)
          (Cert.Spec.msgArr (V c main_v1) (V c main_v2) (V c main_arg1) (V c main_v3) (V c main_arg5) (V c main_v4)
            (V c main_arg7) (V c main_arg8) (V c main_arg9)) := by
  show (cfg0.win 10).cut (grid0.coords t) ((dat0 (F := Ideal) V c).after 10 t) = _
  rw [after0_10]
  unfold out0_10
  rw [View.canon_unit_zero zero2]
  simp only [View.ld_unit_zero (S := S4000x128) zero2, View.ld_unit_zero (S := S384x128) zero2,
    View.ld_unit_zero (S := S128x128) zero2, View.ld_unit_zero (S := S128) zero1]
  funext j
  obtain ⟨p, q, rfl⟩ : ∃ (p : Fin 4000) (q : Fin 128), j = ix2 p q := ⟨j 0, j 1, eq_ix2 j⟩
  refine (Pay0.msg_apply (iblk0 V c 0 t) (iblk0 V c 1 t) (iblk0 V c 2 t) (iblk0 V c 3 t) (iblk0 V c 4 t) (iblk0 V c 5 t)
    (iblk0 V c 6 t) (iblk0 V c 7 t) (iblk0 V c 8 t) p q).trans ?_
  rw [row0_0 V c t p, row0_1 V c t p, row0_2 V c t p, mat0_3 V c t, vec0_4 V c t, mat0_5 V c t, vec0_6 V c t,
    vec0_7 V c t, vec0_8 V c t]
  show _ = Cert.Spec.msgArr (V c main_v1) (V c main_v2) (V c main_arg1) (V c main_v3) (V c main_arg5) (V c main_v4)
            (V c main_arg7) (V c main_arg8) (V c main_arg9) (((cfg0.win 10).blk t).view.emb (ix2 p q))
  rw [emb0_10 t p q]
  rfl

/-- An index of the message array lies in point `t`'s block iff each coordinate lies in the block's range. -/
theorem mem_blk0_10 (t : Fin cfg0.N) (i : S600000x128.Idx) :
    i ∈ ((cfg0.win 10).blk t).view.set ↔ ∀ a : Fin 2, win0_10.index t a * S4000x128.size a ≤ (i a).val
      ∧ (i a).val < win0_10.index t a * S4000x128.size a + S4000x128.size a := by
  show i ∈ ((View.whole main_v7_1).slice (win0_10.rect t)).set ↔ _
  rw [View.set_slice_whole, Rect.mem_set_unit]
  exact Iff.rfl

/-- The block of 4000 rows that holds row r: r / 4000, one of the 150 points. -/
theorem edgePt_lt (i : S600000x128.Idx) : (i 0).val / 4000 < cfg0.N := by
  have h : (i 0).val < 600000 := (i 0).isLt
  show (i 0).val / 4000 < 150
  omega

/-- Every index of the message array lies in the block of the point its row falls in, and every point writes back. -/
theorem covered0_10 (i : S600000x128.Idx) :
    ∃ t : Fin cfg0.N, (cfg0.win 10).flush t = true ∧ i ∈ ((cfg0.win 10).blk t).view.set := by
  refine ⟨⟨(i 0).val / 4000, edgePt_lt i⟩, flush0_10 _, ?_⟩
  rw [mem_blk0_10]
  have h0 : (i 0).val < 600000 := (i 0).isLt
  have h1 : (i 1).val < 128 := (i 1).isLt
  have e := edgeIdx ⟨(i 0).val / 4000, edgePt_lt i⟩
  have e0 : win0_10.index ⟨(i 0).val / 4000, edgePt_lt i⟩ (0 : Fin 2) = (i 0).val / 4000 := e.2.2.2.2.2.2.2.2.2.2.2.2.2.2.2.2.1
  have e1 : win0_10.index ⟨(i 0).val / 4000, edgePt_lt i⟩ (1 : Fin 2) = 0 := e.2.2.2.2.2.2.2.2.2.2.2.2.2.2.2.2.2
  intro a
  match a with
  | ⟨0, _⟩ =>
    show win0_10.index ⟨(i 0).val / 4000, edgePt_lt i⟩ (0 : Fin 2) * 4000 ≤ (i 0).val
      ∧ (i 0).val < win0_10.index ⟨(i 0).val / 4000, edgePt_lt i⟩ (0 : Fin 2) * 4000 + 4000
    rw [e0]; omega
  | ⟨1, _⟩ =>
    show win0_10.index ⟨(i 0).val / 4000, edgePt_lt i⟩ (1 : Fin 2) * 128 ≤ (i 1).val
      ∧ (i 1).val < win0_10.index ⟨(i 0).val / 4000, edgePt_lt i⟩ (1 : Fin 2) * 128 + 128
    rw [e1]; omega

/-- The message array after the edge call. -/
theorem final0_10 (c : Dev nD) :
    (dat0 (F := Ideal) V c).arrAt 10 cfg0.N
      = Cert.Spec.msgArr (V c main_v1) (V c main_v2) (V c main_arg1) (V c main_v3) (V c main_arg5) (V c main_v4)
          (V c main_arg7) (V c main_arg8) (V c main_arg9) :=
  (dat0 (F := Ideal) V c).arrAt_eq_of_cover 10 _ (fun t _ => flushed0_10 V c t) covered0_10

/-- Entry (p, q) of the new-edge output's block at point `t` sits at (4000·t + p, q) of the array. -/
theorem emb0_9 (t : Fin cfg0.N) (p : Fin 4000) (q : Fin 128) :
    ((cfg0.win 9).blk t).view.emb (ix2 p q) = ix2 ⟨4000 * t.val + p.val, edgeRow_lt t p⟩ q := by
  funext d; apply Fin.ext
  match d with
  | ⟨0, _⟩ => show win0_9.index t (0 : Fin 2) * 4000 + 1 * p.val = 4000 * t.val + p.val; rw [(edgeIdx t).2.2.2.2.2.2.2.2.2.2.2.2.2.2.1]; omega
  | ⟨1, _⟩ => show win0_9.index t (1 : Fin 2) * 128 + 1 * q.val = q.val; rw [(edgeIdx t).2.2.2.2.2.2.2.2.2.2.2.2.2.2.2.1]; omega

/-- What point `t` writes back to the new edge table is block `t` of message-plus-old-row over all edges. -/
theorem flushed0_9 (c : Dev nD) (t : Fin cfg0.N) :
    (dat0 (F := Ideal) V c).flushed 9 t
      = ((cfg0.win 9).blk t).view.read (Elt Ideal)
          (Cert.Spec.edgesArr (V c main_v1) (V c main_v2) (V c main_arg1) (V c main_v3) (V c main_arg5) (V c main_v4)
            (V c main_arg7) (V c main_arg8) (V c main_arg9)) := by
  show (cfg0.win 9).cut (grid0.coords t) ((dat0 (F := Ideal) V c).after 9 t) = _
  rw [after0_9]
  unfold out0_9
  rw [View.canon_unit_zero zero2]
  simp only [View.ld_unit_zero (S := S4000x128) zero2, View.ld_unit_zero (S := S384x128) zero2,
    View.ld_unit_zero (S := S128x128) zero2, View.ld_unit_zero (S := S128) zero1]
  funext j
  obtain ⟨p, q, rfl⟩ : ∃ (p : Fin 4000) (q : Fin 128), j = ix2 p q := ⟨j 0, j 1, eq_ix2 j⟩
  refine (Pay0.new_apply (iblk0 V c 0 t) (iblk0 V c 1 t) (iblk0 V c 2 t) (iblk0 V c 3 t) (iblk0 V c 4 t) (iblk0 V c 5 t)
    (iblk0 V c 6 t) (iblk0 V c 7 t) (iblk0 V c 8 t) p q).trans ?_
  rw [row0_0 V c t p, row0_1 V c t p, row0_2 V c t p, mat0_3 V c t, vec0_4 V c t, mat0_5 V c t, vec0_6 V c t,
    vec0_7 V c t, vec0_8 V c t, ent0_2 V c t p q]
  show _ = Cert.Spec.edgesArr (V c main_v1) (V c main_v2) (V c main_arg1) (V c main_v3) (V c main_arg5) (V c main_v4)
            (V c main_arg7) (V c main_arg8) (V c main_arg9) (((cfg0.win 9).blk t).view.emb (ix2 p q))
  rw [emb0_9 t p q]
  rfl

/-- An index of the new edge table lies in point `t`'s block iff each coordinate lies in the block's range. -/
theorem mem_blk0_9 (t : Fin cfg0.N) (i : S600000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v7_0).slice (win0_9.rect t)).set ↔ _
  rw [View.set_slice_whole, Rect.mem_set_unit]
  exact Iff.rfl

/-- Every index of the new edge table lies in the block of the point its row falls in, and every point writes back. -/
theorem covered0_9 (i : S600000x128.Idx) :
    ∃ t : Fin cfg0.N, (cfg0.win 9).flush t = true ∧ i ∈ ((cfg0.win 9).blk t).view.set := by
  refine ⟨⟨(i 0).val / 4000, edgePt_lt i⟩, flush0_9 _, ?_⟩
  rw [mem_blk0_9]
  have h0 : (i 0).val < 600000 := (i 0).isLt
  have h1 : (i 1).val < 128 := (i 1).isLt
  have e := edgeIdx ⟨(i 0).val / 4000, edgePt_lt i⟩
  have e0 : win0_9.index ⟨(i 0).val / 4000, edgePt_lt i⟩ (0 : Fin 2) = (i 0).val / 4000 := e.2.2.2.2.2.2.2.2.2.2.2.2.2.2.1
  have e1 : win0_9.index ⟨(i 0).val / 4000, edgePt_lt i⟩ (1 : Fin 2) = 0 := e.2.2.2.2.2.2.2.2.2.2.2.2.2.2.2.1
  intro a
  match a with
  | ⟨0, _⟩ =>
    show win0_9.index ⟨(i 0).val / 4000, edgePt_lt i⟩ (0 : Fin 2) * 4000 ≤ (i 0).val
      ∧ (i 0).val < win0_9.index ⟨(i 0).val / 4000, edgePt_lt i⟩ (0 : Fin 2) * 4000 + 4000
    rw [e0]; omega
  | ⟨1, _⟩ =>
    show win0_9.index ⟨(i 0).val / 4000, edgePt_lt i⟩ (1 : Fin 2) * 128 ≤ (i 1).val
      ∧ (i 1).val < win0_9.index ⟨(i 0).val / 4000, edgePt_lt i⟩ (1 : Fin 2) * 128 + 128
    rw [e1]; omega

/-- The new-edge array after the edge call. -/
theorem final0_9 (c : Dev nD) :
    (dat0 (F := Ideal) V c).arrAt 9 cfg0.N
      = Cert.Spec.edgesArr (V c main_v1) (V c main_v2) (V c main_arg1) (V c main_v3) (V c main_arg5) (V c main_v4)
          (V c main_arg7) (V c main_arg8) (V c main_arg9) :=
  (dat0 (F := Ideal) V c).arrAt_eq_of_cover 9 _ (fun t _ => flushed0_9 V c t) covered0_9

/-! ## The node call -/

/-- The index maps of the node call, decided over its 25 points: a row window's block index is the point on the row
    axis and 0 on the feature axis; a weight's or bias's one block has index 0. -/
theorem nodeIdx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 1) = 0
    ∧ win1_7.index t (0 : Fin 1) = 0
    ∧ win1_8.index t (0 : Fin 2) = t.val ∧ win1_8.index t (1 : Fin 2) = 0 :=
  (by decide +kernel : ∀ t : Fin grid1.N, _)

/-- Row `p` of point `t`'s block is a row of the array: 2000 rows a block, 25 blocks. -/
theorem nodeRow_lt (t : Fin cfg1.N) (p : Fin 2000) : 2000 * t.val + p.val < 50000 := by
  have ht : t.val < 25 := t.isLt
  have hp : p.val < 2000 := p.isLt
  omega

/-- Entry (p, a) of the node block at point `t` is entry (2000·t + p, a) of the node table. -/
theorem ent1_0 (c : Dev nD) (t : Fin cfg1.N) (p : Fin 2000) (a : Fin 128) :
    iblk1 (F := Ideal) V c 0 t (ix2 p a) = V c main_arg0 (ix2 ⟨2000 * t.val + p.val, nodeRow_lt t p⟩ a) := by
  show V c main_arg0 (((cfg1.win 0).blk t).view.emb (ix2 p a)) = V c main_arg0 (ix2 ⟨2000 * t.val + p.val, nodeRow_lt t p⟩ a)
  congr 1
  funext d; apply Fin.ext
  match d with
  | ⟨0, _⟩ => show win1_0.index t (0 : Fin 2) * 2000 + 1 * p.val = 2000 * t.val + p.val; rw [(nodeIdx t).1]; omega
  | ⟨1, _⟩ => show win1_0.index t (1 : Fin 2) * 128 + 1 * a.val = a.val; rw [(nodeIdx t).2.1]; omega

/-- Row `p` of the node block at point `t` is row 2000·t + p of the node table. -/
theorem row1_0 (c : Dev nD) (t : Fin cfg1.N) (p : Fin 2000) :
    Cert.Spec.row (iblk1 (F := Ideal) V c 0 t) p = Cert.Spec.row (V c main_arg0) ⟨2000 * t.val + p.val, nodeRow_lt t p⟩ :=
  funext fun a => ent1_0 V c t p a

/-- Row `p` of the summed-message block at point `t` is row 2000·t + p of the per-node sums. -/
theorem row1_1 (c : Dev nD) (t : Fin cfg1.N) (p : Fin 2000) :
    Cert.Spec.row (iblk1 (F := Ideal) V c 1 t) p = Cert.Spec.row (V c main_v10) ⟨2000 * t.val + p.val, nodeRow_lt t p⟩ := by
  funext a
  show V c main_v10 (((cfg1.win 1).blk t).view.emb (ix2 p a)) = V c main_v10 (ix2 ⟨2000 * t.val + p.val, nodeRow_lt t p⟩ a)
  congr 1
  funext d; apply Fin.ext
  match d with
  | ⟨0, _⟩ => show win1_1.index t (0 : Fin 2) * 2000 + 1 * p.val = 2000 * t.val + p.val; rw [(nodeIdx t).2.2.1]; omega
  | ⟨1, _⟩ => show win1_1.index t (1 : Fin 2) * 128 + 1 * a.val = a.val; rw [(nodeIdx t).2.2.2.1]; omega

/-- The first layer's weight is staged whole: its one block is the array. -/
theorem mat1_2 (c : Dev nD) (t : Fin cfg1.N) : Cert.Spec.mat (iblk1 (F := Ideal) V c 2 t) = Cert.Spec.mat (V c main_v5) := by
  funext k a
  show V c main_v5 (((cfg1.win 2).blk t).view.emb (ix2 k a)) = V c main_v5 (ix2 k a)
  congr 1
  funext d; apply Fin.ext
  match d with
  | ⟨0, _⟩ => show win1_2.index t (0 : Fin 2) * 256 + 1 * k.val = k.val; rw [(nodeIdx t).2.2.2.2.1]; omega
  | ⟨1, _⟩ => show win1_2.index t (1 : Fin 2) * 128 + 1 * a.val = a.val; rw [(nodeIdx t).2.2.2.2.2.1]; omega

/-- The first layer's bias is staged whole. -/
theorem vec1_3 (c : Dev nD) (t : Fin cfg1.N) : Cert.Spec.vec (iblk1 (F := Ideal) V c 3 t) = Cert.Spec.vec (V c main_arg11) := by
  funext a
  show V c main_arg11 (((cfg1.win 3).blk t).view.emb (ix1 a)) = V c main_arg11 (ix1 a)
  congr 1
  funext d; apply Fin.ext
  match d with
  | ⟨0, _⟩ => show win1_3.index t (0 : Fin 1) * 128 + 1 * a.val = a.val; rw [(nodeIdx t).2.2.2.2.2.2.1]; omega

/-- The second layer's weight is staged whole. -/
theorem mat1_4 (c : Dev nD) (t : Fin cfg1.N) : Cert.Spec.mat (iblk1 (F := Ideal) V c 4 t) = Cert.Spec.mat (V c main_v6) := by
  funext k a
  show V c main_v6 (((cfg1.win 4).blk t).view.emb (ix2 k a)) = V c main_v6 (ix2 k a)
  congr 1
  funext d; apply Fin.ext
  match d with
  | ⟨0, _⟩ => show win1_4.index t (0 : Fin 2) * 128 + 1 * k.val = k.val; rw [(nodeIdx t).2.2.2.2.2.2.2.1]; omega
  | ⟨1, _⟩ => show win1_4.index t (1 : Fin 2) * 128 + 1 * a.val = a.val; rw [(nodeIdx t).2.2.2.2.2.2.2.2.1]; omega

/-- The second layer's bias is staged whole. -/
theorem vec1_5 (c : Dev nD) (t : Fin cfg1.N) : Cert.Spec.vec (iblk1 (F := Ideal) V c 5 t) = Cert.Spec.vec (V c main_arg13) := by
  funext a
  show V c main_arg13 (((cfg1.win 5).blk t).view.emb (ix1 a)) = V c main_arg13 (ix1 a)
  congr 1
  funext d; apply Fin.ext
  match d with
  | ⟨0, _⟩ => show win1_5.index t (0 : Fin 1) * 128 + 1 * a.val = a.val; rw [(nodeIdx t).2.2.2.2.2.2.2.2.2.1]; omega

/-- The normalisation's scale is staged whole. -/
theorem vec1_6 (c : Dev nD) (t : Fin cfg1.N) : Cert.Spec.vec (iblk1 (F := Ideal) V c 6 t) = Cert.Spec.vec (V c main_arg14) := by
  funext a
  show V c main_arg14 (((cfg1.win 6).blk t).view.emb (ix1 a)) = V c main_arg14 (ix1 a)
  congr 1
  funext d; apply Fin.ext
  match d with
  | ⟨0, _⟩ => show win1_6.index t (0 : Fin 1) * 128 + 1 * a.val = a.val; rw [(nodeIdx t).2.2.2.2.2.2.2.2.2.2.1]; omega

/-- The normalisation's shift is staged whole. -/
theorem vec1_7 (c : Dev nD) (t : Fin cfg1.N) : Cert.Spec.vec (iblk1 (F := Ideal) V c 7 t) = Cert.Spec.vec (V c main_arg15) := by
  funext a
  show V c main_arg15 (((cfg1.win 7).blk t).view.emb (ix1 a)) = V c main_arg15 (ix1 a)
  congr 1
  funext d; apply Fin.ext
  match d with
  | ⟨0, _⟩ => show win1_7.index t (0 : Fin 1) * 128 + 1 * a.val = a.val; rw [(nodeIdx t).2.2.2.2.2.2.2.2.2.2.2.1]; omega

/-- Entry (p, q) of the output's block at point `t` sits at (2000·t + p, q) of the array. -/
theorem emb1_8 (t : Fin cfg1.N) (p : Fin 2000) (q : Fin 128) :
    ((cfg1.win 8).blk t).view.emb (ix2 p q) = ix2 ⟨2000 * t.val + p.val, nodeRow_lt t p⟩ q := by
  funext d; apply Fin.ext
  match d with
  | ⟨0, _⟩ => show win1_8.index t (0 : Fin 2) * 2000 + 1 * p.val = 2000 * t.val + p.val; rw [(nodeIdx t).2.2.2.2.2.2.2.2.2.2.2.2.1]; omega
  | ⟨1, _⟩ => show win1_8.index t (1 : Fin 2) * 128 + 1 * q.val = q.val; rw [(nodeIdx t).2.2.2.2.2.2.2.2.2.2.2.2.2]; omega

/-- What point `t` writes back to the new node table is block `t` of update-plus-old-row over all nodes. -/
theorem flushed1_8 (c : Dev nD) (t : Fin cfg1.N) :
    (dat1 (F := Ideal) V c).flushed 8 t
      = ((cfg1.win 8).blk t).view.read (Elt Ideal)
          (Cert.Spec.nodesArr (V c main_arg0) (V c main_v10) (V c main_v5) (V c main_arg11) (V c main_v6)
            (V c main_arg13) (V c main_arg14) (V c main_arg15)) := by
  show (cfg1.win 8).cut (grid1.coords t) ((dat1 (F := Ideal) V c).after 8 t) = _
  rw [after1_8]
  unfold out1_8
  rw [View.canon_unit_zero zero2]
  simp only [View.ld_unit_zero (S := S2000x128) zero2, View.ld_unit_zero (S := S256x128) zero2,
    View.ld_unit_zero (S := S128x128) zero2, View.ld_unit_zero (S := S128) zero1]
  funext j
  obtain ⟨p, q, rfl⟩ : ∃ (p : Fin 2000) (q : Fin 128), j = ix2 p q := ⟨j 0, j 1, eq_ix2 j⟩
  refine (Pay1.node_apply (iblk1 V c 0 t) (iblk1 V c 1 t) (iblk1 V c 2 t) (iblk1 V c 3 t) (iblk1 V c 4 t) (iblk1 V c 5 t)
    (iblk1 V c 6 t) (iblk1 V c 7 t) p q).trans ?_
  rw [row1_0 V c t p, row1_1 V c t p, mat1_2 V c t, vec1_3 V c t, mat1_4 V c t, vec1_5 V c t, vec1_6 V c t,
    vec1_7 V c t, ent1_0 V c t p q]
  show _ = Cert.Spec.nodesArr (V c main_arg0) (V c main_v10) (V c main_v5) (V c main_arg11) (V c main_v6)
            (V c main_arg13) (V c main_arg14) (V c main_arg15) (((cfg1.win 8).blk t).view.emb (ix2 p q))
  rw [emb1_8 t p q]
  rfl

/-- An index of the new node table lies in point `t`'s block iff each coordinate lies in the block's range. -/
theorem mem_blk1_8 (t : Fin cfg1.N) (i : S50000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v11).slice (win1_8.rect t)).set ↔ _
  rw [View.set_slice_whole, Rect.mem_set_unit]
  exact Iff.rfl

/-- The block of 2000 rows that holds row r: r / 2000, one of the 25 points. -/
theorem nodePt_lt (i : S50000x128.Idx) : (i 0).val / 2000 < cfg1.N := by
  have h : (i 0).val < 50000 := (i 0).isLt
  show (i 0).val / 2000 < 25
  omega

/-- Every index of the new node table lies in the block of the point its row falls in, and every point writes back. -/
theorem covered1_8 (i : S50000x128.Idx) :
    ∃ t : Fin cfg1.N, (cfg1.win 8).flush t = true ∧ i ∈ ((cfg1.win 8).blk t).view.set := by
  refine ⟨⟨(i 0).val / 2000, nodePt_lt i⟩, flush1_8 _, ?_⟩
  rw [mem_blk1_8]
  have h0 : (i 0).val < 50000 := (i 0).isLt
  have h1 : (i 1).val < 128 := (i 1).isLt
  have e := nodeIdx ⟨(i 0).val / 2000, nodePt_lt i⟩
  have e0 : win1_8.index ⟨(i 0).val / 2000, nodePt_lt i⟩ (0 : Fin 2) = (i 0).val / 2000 := e.2.2.2.2.2.2.2.2.2.2.2.2.1
  have e1 : win1_8.index ⟨(i 0).val / 2000, nodePt_lt i⟩ (1 : Fin 2) = 0 := e.2.2.2.2.2.2.2.2.2.2.2.2.2
  intro a
  match a with
  | ⟨0, _⟩ =>
    show win1_8.index ⟨(i 0).val / 2000, nodePt_lt i⟩ (0 : Fin 2) * 2000 ≤ (i 0).val
      ∧ (i 0).val < win1_8.index ⟨(i 0).val / 2000, nodePt_lt i⟩ (0 : Fin 2) * 2000 + 2000
    rw [e0]; omega
  | ⟨1, _⟩ =>
    show win1_8.index ⟨(i 0).val / 2000, nodePt_lt i⟩ (1 : Fin 2) * 128 ≤ (i 1).val
      ∧ (i 1).val < win1_8.index ⟨(i 0).val / 2000, nodePt_lt i⟩ (1 : Fin 2) * 128 + 128
    rw [e1]; omega

/-- The new-node array after the node call. -/
theorem final1_8 (c : Dev nD) :
    (dat1 (F := Ideal) V c).arrAt 8 cfg1.N
      = Cert.Spec.nodesArr (V c main_arg0) (V c main_v10) (V c main_v5) (V c main_arg11) (V c main_v6)
          (V c main_arg13) (V c main_arg14) (V c main_arg15) :=
  (dat1 (F := Ideal) V c).arrAt_eq_of_cover 8 _ (fun t _ => flushed1_8 V c t) covered1_8

end Cert.KernelIdeal.Blocks

end
-- ==== Proof.KValue.lean ====
/-
  The kernel program's value. Every execution ends with the new-node buffer and the new-edge buffer at the last
  boundary's contents; read back through the two calls and the host operations between them, those are the
  specification's arrays of the launch arguments: the edge table is the message array of the node table gathered at
  the raw sender and receiver indices, plus the old edges; the node table is the node row function of the old nodes and
  of the scatter-add of that message array at the raw receiver indices, plus the old nodes.
-/
import proofs.«413768_j28114855920032_3_alg».proof.Proof.KRunP
import proofs.«413768_j28114855920032_3_alg».proof.Proof.KHost
import proofs.«413768_j28114855920032_3_alg».proof.Proof.KBlocks
import proofs.«413768_j28114855920032_3_alg».proof.Proof.Spec

set_option maxRecDepth 16384

noncomputable section

namespace Cert.KernelIdeal.KValue

open Cert.KernelIdeal Cert.KernelIdeal.Gen Cert.KernelIdeal.Host Idealize.ShloMosaic Idealize.ShloMosaic.TcCoe Idealize.SL.Sem

variable (m : (ℓ : Loc nD τ sig) → Buf (Elt Ideal) ℓ) (ρ : Dev nD → PrngReg)

/-- The message array of the launch arguments: the edge perceptron and its normalisation on the gathered sender and
    receiver rows and the edge rows. -/
abbrev msgOut (c : Dev nD) : S600000x128.Idx → EReal :=
  Cert.Spec.msgArr (gath (m ((c : Thread nD τ).loc main_arg0)) (m ((c : Thread nD τ).loc main_arg2)))
    (gath (m ((c : Thread nD τ).loc main_arg0)) (m ((c : Thread nD τ).loc main_arg3)))
    (m ((c : Thread nD τ).loc main_arg1)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The new edge table of the launch arguments. -/
abbrev edgesOut (c : Dev nD) : S600000x128.Idx → EReal :=
  Cert.Spec.edgesArr (gath (m ((c : Thread nD τ).loc main_arg0)) (m ((c : Thread nD τ).loc main_arg2)))
    (gath (m ((c : Thread nD τ).loc main_arg0)) (m ((c : Thread nD τ).loc main_arg3)))
    (m ((c : Thread nD τ).loc main_arg1)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The new node table of the launch arguments. -/
abbrev nodesOut (c : Dev nD) : S50000x128.Idx → EReal :=
  Cert.Spec.nodesArr (m ((c : Thread nD τ).loc main_arg0)) (aggOf (m ((c : Thread nD τ).loc main_arg3)) (msgOut m c))
    (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))

/-- The message buffer after the edge call is the message array of the launch arguments. -/
theorem msg_eq (c : Dev nD) : (W5 m ρ c (Proc.devRef .tc main_v7_1) : S600000x128.Idx → EReal) = msgOut m c := by
  rw [W5_v7_1, Blocks.final0_10 (V4 m ρ) c, V4_v1, V4_v2, V4_arg1, V4_v3, V4_arg5, V4_v4, V4_arg7, V4_arg8, V4_arg9]

/-- The new-edge buffer at the last boundary is the new edge table of the launch arguments. -/
theorem edges_eq (c : Dev nD) : (W7 m ρ c (Proc.devRef .tc main_v7_0) : S600000x128.Idx → EReal) = edgesOut m c := by
  rw [W7_v7_0, Blocks.final0_9 (V4 m ρ) c, V4_v1, V4_v2, V4_arg1, V4_v3, V4_arg5, V4_v4, V4_arg7, V4_arg8, V4_arg9]

/-- The new-node buffer at the last boundary is the new node table of the launch arguments. -/
theorem nodes_eq (c : Dev nD) : (W7 m ρ c (Proc.devRef .tc main_v11) : S50000x128.Idx → EReal) = nodesOut m c := by
  have e0 : (V6 m ρ c main_arg0 : S50000x128.Idx → EReal) = m ((c : Thread nD τ).loc main_arg0) :=
    (W6_arg0 m ρ c).trans ((W5_keep m ρ c main_arg0 (by decide)).trans (V4_arg0 m ρ c))
  have e3 : (W5 m ρ c (Proc.devRef .tc main_arg3) : IVec S600000 32) = m ((c : Thread nD τ).loc main_arg3) :=
    (W5_keep m ρ c main_arg3 (by decide)).trans (V4_arg3 m ρ c)
  have e10 : (V6 m ρ c main_v10 : S50000x128.Idx → EReal) = aggOf (m ((c : Thread nD τ).loc main_arg3)) (msgOut m c) := by
    refine (W6_v10 m ρ c).trans ?_
    rw [e3, msg_eq]
  have e5 : (V6 m ρ c main_v5 : S256x128.Idx → EReal) = m ((c : Thread nD τ).loc main_arg10) :=
    (W6_v5 m ρ c).trans ((W5_keep m ρ c main_v5 (by decide)).trans (V4_v5 m ρ c))
  have e11 : (V6 m ρ c main_arg11 : S128.Idx → EReal) = m ((c : Thread nD τ).loc main_arg11) :=
    (W6_arg11 m ρ c).trans ((W5_keep m ρ c main_arg11 (by decide)).trans (V4_arg11 m ρ c))
  have e6 : (V6 m ρ c main_v6 : S128x128.Idx → EReal) = m ((c : Thread nD τ).loc main_arg12) :=
    (W6_v6 m ρ c).trans ((W5_keep m ρ c main_v6 (by decide)).trans (V4_v6 m ρ c))
  have e13 : (V6 m ρ c main_arg13 : S128.Idx → EReal) = m ((c : Thread nD τ).loc main_arg13) :=
    (W6_arg13 m ρ c).trans ((W5_keep m ρ c main_arg13 (by decide)).trans (V4_arg13 m ρ c))
  have e14 : (V6 m ρ c main_arg14 : S128.Idx → EReal) = m ((c : Thread nD τ).loc main_arg14) :=
    (W6_arg14 m ρ c).trans ((W5_keep m ρ c main_arg14 (by decide)).trans (V4_arg14 m ρ c))
  have e15 : (V6 m ρ c main_arg15 : S128.Idx → EReal) = m ((c : Thread nD τ).loc main_arg15) :=
    (W6_arg15 m ρ c).trans ((W5_keep m ρ c main_arg15 (by decide)).trans (V4_arg15 m ρ c))
  rw [W7_v11, Blocks.final1_8 (V6 m ρ) c, e0, e10, e5, e11, e6, e13, e14, e15]

/-- The kernel program's run with both results named: every weakly fair execution terminates, nothing faulting, with the
    new node table and the new edge table of the launch arguments in the result buffers and the arguments unchanged. -/
theorem run : θ_run defs (onTc (τ := τ) (main (F := Ideal))) ⟨m, fun _ => 0, ρ⟩ (fun r => ∀ c : Dev nD,
      r.2.mem ((c.tc : Thread nD τ).loc main_v11) = nodesOut m c
      ∧ r.2.mem ((c.tc : Thread nD τ).loc main_v7_0) = edgesOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (nodes_eq m ρ c), (h c).2.1.trans (edges_eq m ρ c), (h c).2.2⟩)
    (Cert.KernelIdeal.GenRun.run_main (F := Ideal) m ρ)

end Cert.KernelIdeal.KValue

end
-- ==== Proof.LibNary3.lean ====
/-
  A general lemma about a line of host operations: the result of an operation over a LITERAL family of three
  references (a concatenation of three operands), with each operand's contents read at its own reference. The library
  states this for four references; for three it is the same argument. With the operands named one by one, reading a
  buffer after a line of operations can go on through the concatenation into the operations that wrote its operands.
-/
import Idealize.ShloMosaic.Lib.StableHlo.Run

noncomputable section

namespace Idealize.ShloMosaic.StableHlo

variable {τ : Topo} {sig : RefSig} {Val : EltTy → Type} {x a b y : Ref sig .tc}

/-- The result of a three-operand operation at its result buffer is its function of the three operands' contents, each
    at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a))
          (Fin.cons (F (Proc.devRef .tc b)) (fun i => i.elim0)))) := by
  rw [nary_result]; congr 1; funext k; fin_cases k <;> rfl

end Idealize.ShloMosaic.StableHlo

end
-- ==== Proof.RefStages.lean ====
/-
  The reference's run with its two results named stage by stage. The program is a straight line of 106 host operations;
  every execution ends with each buffer at the fold of the operations over the launch contents. The fold is read a
  stretch at a time. At each boundary between stretches an invariant says what the buffers read later hold: every
  argument buffer still holds its argument (no operation writes one), and each value that later operations read more
  than once (the pre-normalisation rows, their mean, their variance, the edge value, and the same three of the node
  chain) is at its stage of the chain of stages, a function of the arguments. Within a stretch every operation's result
  is its function of its operands, so the stretch's last value is its stage's definition over the values the
  invariant names; nothing is ever substituted twice.
-/
import proofs.«413768_j28114855920032_3_alg».proof.Proof.RefReadP
import proofs.«413768_j28114855920032_3_alg».proof.Proof.RefOpsP
import proofs.«413768_j28114855920032_3_alg».proof.Proof.LibNary3
import Idealize.ShloMosaic.Lib.StableHlo.Run
import Idealize.ShloMosaic.Lib.Pipeline.Frame

set_option maxRecDepth 8192

noncomputable section

namespace Cert.ReferenceIdeal.RefStages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

section Boundaries

variable (x0 : (⟨S50000x128, .f32⟩ : BufTy).Contents (Elt F)) (x1 : (⟨S600000x128, .f32⟩ : BufTy).Contents (Elt F)) (x2 x3 : (⟨S600000, .i32⟩ : BufTy).Contents (Elt F))
    (x4 : (⟨S384x128, .f32⟩ : BufTy).Contents (Elt F)) (x5 : (⟨S128, .f32⟩ : BufTy).Contents (Elt F)) (x6 : (⟨S128x128, .f32⟩ : BufTy).Contents (Elt F)) (x7 x8 x9 : (⟨S128, .f32⟩ : BufTy).Contents (Elt F))
    (x10 : (⟨S256x128, .f32⟩ : BufTy).Contents (Elt F)) (x11 : (⟨S128, .f32⟩ : BufTy).Contents (Elt F)) (x12 : (⟨S128x128, .f32⟩ : BufTy).Contents (Elt F)) (x13 x14 x15 : (⟨S128, .f32⟩ : BufTy).Contents (Elt F))

/-- Every argument buffer holds its argument. -/
def Args (W : Valuation τ sig (Elt F)) : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_arg5) = x5 ∧
  W (Proc.devRef .tc main_arg6) = x6 ∧
  W (Proc.devRef .tc main_arg7) = x7 ∧
  W (Proc.devRef .tc main_arg8) = x8 ∧
  W (Proc.devRef .tc main_arg9) = x9 ∧
  W (Proc.devRef .tc main_arg10) = x10 ∧
  W (Proc.devRef .tc main_arg11) = x11 ∧
  W (Proc.devRef .tc main_arg12) = x12 ∧
  W (Proc.devRef .tc main_arg13) = x13 ∧
  W (Proc.devRef .tc main_arg14) = x14 ∧
  W (Proc.devRef .tc main_arg15) = x15

/-- Reads one buffer after a stretch: every operation's result at its own buffer is its function of its operands'
    contents (a three-operand concatenation's operands each at its own reference), at another buffer what was there. -/
local macro "read_results" : tactic =>
  `(tactic| (simp only [after_cons, after_nil]
             repeat (first
               | rw [nullary_result] | rw [unary_result] | rw [binary_result] | rw [ternary_result] | rw [nary3_result]
               | (rw [nullary_result_ne]; rotate_left; decide)
               | (rw [unary_result_ne]; rotate_left; decide)
               | (rw [binary_result_ne]; rotate_left; decide)
               | (rw [ternary_result_ne]; rotate_left; decide)
               | (rw [nary_result_ne]; rotate_left; decide))))

/-- A buffer the stretch does not write: it holds what the invariant before the stretch says. -/
local macro "keep" : tactic => `(tactic| (read_results; assumption))

/-- After the first stretch: the pre-normalisation edge rows. -/
def LiveA (W : Valuation τ sig (Elt F)) : Prop :=
  Args (F := F) x0 x1 x2 x3 x4 x5 x6 x7 x8 x9 x10 x11 x12 x13 x14 x15 W ∧ W (Proc.devRef .tc main_v23) = val_main_v23 (F := F) x0 x1 x2 x3 x4 x5 x6 x7
/-- … and their mean. -/
def LiveB (W : Valuation τ sig (Elt F)) : Prop :=
  Args (F := F) x0 x1 x2 x3 x4 x5 x6 x7 x8 x9 x10 x11 x12 x13 x14 x15 W ∧ W (Proc.devRef .tc main_v23) = val_main_v23 (F := F) x0 x1 x2 x3 x4 x5 x6 x7 ∧
  W (Proc.devRef .tc main_v27) = val_main_v27 (F := F) x0 x1 x2 x3 x4 x5 x6 x7
/-- … and their variance. -/
def LiveC (W : Valuation τ sig (Elt F)) : Prop :=
  Args (F := F) x0 x1 x2 x3 x4 x5 x6 x7 x8 x9 x10 x11 x12 x13 x14 x15 W ∧ W (Proc.devRef .tc main_v23) = val_main_v23 (F := F) x0 x1 x2 x3 x4 x5 x6 x7 ∧
  W (Proc.devRef .tc main_v27) = val_main_v27 (F := F) x0 x1 x2 x3 x4 x5 x6 x7 ∧
  W (Proc.devRef .tc main_v34) = val_main_v34 (F := F) x0 x1 x2 x3 x4 x5 x6 x7
/-- After the edge chain: the edge value before the residual. -/
def LiveD (W : Valuation τ sig (Elt F)) : Prop :=
  Args (F := F) x0 x1 x2 x3 x4 x5 x6 x7 x8 x9 x10 x11 x12 x13 x14 x15 W ∧ W (Proc.devRef .tc main_v47) = val_main_v47 (F := F) x0 x1 x2 x3 x4 x5 x6 x7 x8 x9
/-- … and the pre-normalisation node rows. -/
def LiveE (W : Valuation τ sig (Elt F)) : Prop :=
  Args (F := F) x0 x1 x2 x3 x4 x5 x6 x7 x8 x9 x10 x11 x12 x13 x14 x15 W ∧ W (Proc.devRef .tc main_v47) = val_main_v47 (F := F) x0 x1 x2 x3 x4 x5 x6 x7 x8 x9 ∧
  W (Proc.devRef .tc main_v60) = val_main_v60 (F := F) x0 x1 x2 x3 x4 x5 x6 x7 x8 x9 x10 x11 x12 x13
/-- … and their mean. -/
def LiveF (W : Valuation τ sig (Elt F)) : Prop :=
  Args (F := F) x0 x1 x2 x3 x4 x5 x6 x7 x8 x9 x10 x11 x12 x13 x14 x15 W ∧ W (Proc.devRef .tc main_v47) = val_main_v47 (F := F) x0 x1 x2 x3 x4 x5 x6 x7 x8 x9 ∧
  W (Proc.devRef .tc main_v60) = val_main_v60 (F := F) x0 x1 x2 x3 x4 x5 x6 x7 x8 x9 x10 x11 x12 x13 ∧
  W (Proc.devRef .tc main_v64) = val_main_v64 (F := F) x0 x1 x2 x3 x4 x5 x6 x7 x8 x9 x10 x11 x12 x13
/-- … and their variance. -/
def LiveG (W : Valuation τ sig (Elt F)) : Prop :=
  Args (F := F) x0 x1 x2 x3 x4 x5 x6 x7 x8 x9 x10 x11 x12 x13 x14 x15 W ∧ W (Proc.devRef .tc main_v47) = val_main_v47 (F := F) x0 x1 x2 x3 x4 x5 x6 x7 x8 x9 ∧
  W (Proc.devRef .tc main_v60) = val_main_v60 (F := F) x0 x1 x2 x3 x4 x5 x6 x7 x8 x9 x10 x11 x12 x13 ∧
  W (Proc.devRef .tc main_v64) = val_main_v64 (F := F) x0 x1 x2 x3 x4 x5 x6 x7 x8 x9 x10 x11 x12 x13 ∧
  W (Proc.devRef .tc main_v71) = val_main_v71 (F := F) x0 x1 x2 x3 x4 x5 x6 x7 x8 x9 x10 x11 x12 x13
/-- At the end: the two results. -/
def LiveH (W : Valuation τ sig (Elt F)) : Prop :=
  Args (F := F) x0 x1 x2 x3 x4 x5 x6 x7 x8 x9 x10 x11 x12 x13 x14 x15 W ∧ W (Proc.devRef .tc main_v85) = val_main_v85 (F := F) x0 x1 x2 x3 x4 x5 x6 x7 x8 x9 x10 x11 x12 x13 x14 x15 ∧
  W (Proc.devRef .tc main_v86) = val_main_v86 (F := F) x0 x1 x2 x3 x4 x5 x6 x7 x8 x9

set_option maxHeartbeats 8000000 in
theorem liveA (W : Valuation τ sig (Elt F)) (h : Args (F := F) x0 x1 x2 x3 x4 x5 x6 x7 x8 x9 x10 x11 x12 x13 x14 x15 W) :
    LiveA (F := F) x0 x1 x2 x3 x4 x5 x6 x7 x8 x9 x10 x11 x12 x13 x14 x15 (after opsA W) := by
  obtain ⟨a0, a1, a2, a3, a4, a5, a6, a7, a8, a9, a10, a11, a12, a13, a14, a15⟩ := h
  refine ⟨⟨by keep, by keep, by keep, by keep, by keep, by keep, by keep, by keep, by keep, by keep, by keep, by keep, by keep, by keep, by keep, by keep⟩, ?_⟩
  · -- the gathers, the concatenation, the two linear maps, the biases and the rectifier: the stage's definition
    read_results
    rw [a0, a1, a2, a3, a4, a5, a6, a7]
    simp only [TRef.ofBuf, TRef.toBuf, cast_eq]
    rfl

set_option maxHeartbeats 8000000 in
theorem liveB (W : Valuation τ sig (Elt F)) (h : LiveA (F := F) x0 x1 x2 x3 x4 x5 x6 x7 x8 x9 x10 x11 x12 x13 x14 x15 W) :
    LiveB (F := F) x0 x1 x2 x3 x4 x5 x6 x7 x8 x9 x10 x11 x12 x13 x14 x15 (after opsB W) := by
  obtain ⟨⟨a0, a1, a2, a3, a4, a5, a6, a7, a8, a9, a10, a11, a12, a13, a14, a15⟩, h23⟩ := h
  refine ⟨⟨by keep, by keep, by keep, by keep, by keep, by keep, by keep, by keep, by keep, by keep, by keep, by keep, by keep, by keep, by keep, by keep⟩, ?_, ?_⟩
  · keep
  ·
    read_results
    rw [h23]
    rfl

set_option maxHeartbeats 8000000 in
theorem liveC (W : Valuation τ sig (Elt F)) (h : LiveB (F := F) x0 x1 x2 x3 x4 x5 x6 x7 x8 x9 x10 x11 x12 x13 x14 x15 W) :
    LiveC (F := F) x0 x1 x2 x3 x4 x5 x6 x7 x8 x9 x10 x11 x12 x13 x14 x15 (after opsC W) := by
  obtain ⟨⟨a0, a1, a2, a3, a4, a5, a6, a7, a8, a9, a10, a11, a12, a13, a14, a15⟩, h23, h27⟩ := h
  refine ⟨⟨by keep, by keep, by keep, by keep, by keep, by keep, by keep, by keep, by keep, by keep, by keep, by keep, by keep, by keep, by keep, by keep⟩, ?_, ?_, ?_⟩
  · keep
  · keep
  ·
    read_results
    rw [h23, h27]
    rfl

set_option maxHeartbeats 8000000 in
theorem liveD (W : Valuation τ sig (Elt F)) (h : LiveC (F := F) x0 x1 x2 x3 x4 x5 x6 x7 x8 x9 x10 x11 x12 x13 x14 x15 W) :
    LiveD (F := F) x0 x1 x2 x3 x4 x5 x6 x7 x8 x9 x10 x11 x12 x13 x14 x15 (after opsD W) := by
  obtain ⟨⟨a0, a1, a2, a3, a4, a5, a6, a7, a8, a9, a10, a11, a12, a13, a14, a15⟩, h23, h27, h34⟩ := h
  refine ⟨⟨by keep, by keep, by keep, by keep, by keep, by keep, by keep, by keep, by keep, by keep, by keep, by keep, by keep, by keep, by keep, by keep⟩, ?_⟩
  ·
    read_results
    rw [h27, h23, h34, a8, a9]
    rfl

set_option maxHeartbeats 8000000 in
theorem liveE (W : Valuation τ sig (Elt F)) (h : LiveD (F := F) x0 x1 x2 x3 x4 x5 x6 x7 x8 x9 x10 x11 x12 x13 x14 x15 W) :
    LiveE (F := F) x0 x1 x2 x3 x4 x5 x6 x7 x8 x9 x10 x11 x12 x13 x14 x15 (after opsE W) := by
  obtain ⟨⟨a0, a1, a2, a3, a4, a5, a6, a7, a8, a9, a10, a11, a12, a13, a14, a15⟩, h47⟩ := h
  refine ⟨⟨by keep, by keep, by keep, by keep, by keep, by keep, by keep, by keep, by keep, by keep, by keep, by keep, by keep, by keep, by keep, by keep⟩, ?_, ?_⟩
  · keep
  ·
    read_results
    rw [a0, a3, h47, a10, a11, a12, a13]
    simp only [TRef.ofBuf, TRef.toBuf, cast_eq]
    rfl

set_option maxHeartbeats 8000000 in
theorem liveF (W : Valuation τ sig (Elt F)) (h : LiveE (F := F) x0 x1 x2 x3 x4 x5 x6 x7 x8 x9 x10 x11 x12 x13 x14 x15 W) :
    LiveF (F := F) x0 x1 x2 x3 x4 x5 x6 x7 x8 x9 x10 x11 x12 x13 x14 x15 (after opsF W) := by
  obtain ⟨⟨a0, a1, a2, a3, a4, a5, a6, a7, a8, a9, a10, a11, a12, a13, a14, a15⟩, h47, h60⟩ := h
  refine ⟨⟨by keep, by keep, by keep, by keep, by keep, by keep, by keep, by keep, by keep, by keep, by keep, by keep, by keep, by keep, by keep, by keep⟩, ?_, ?_, ?_⟩
  · keep
  · keep
  ·
    read_results
    rw [h60]
    rfl

set_option maxHeartbeats 8000000 in
theorem liveG (W : Valuation τ sig (Elt F)) (h : LiveF (F := F) x0 x1 x2 x3 x4 x5 x6 x7 x8 x9 x10 x11 x12 x13 x14 x15 W) :
    LiveG (F := F) x0 x1 x2 x3 x4 x5 x6 x7 x8 x9 x10 x11 x12 x13 x14 x15 (after opsG W) := by
  obtain ⟨⟨a0, a1, a2, a3, a4, a5, a6, a7, a8, a9, a10, a11, a12, a13, a14, a15⟩, h47, h60, h64⟩ := h
  refine ⟨⟨by keep, by keep, by keep, by keep, by keep, by keep, by keep, by keep, by keep, by keep, by keep, by keep, by keep, by keep, by keep, by keep⟩, ?_, ?_, ?_, ?_⟩
  · keep
  · keep
  · keep
  ·
    read_results
    rw [h60, h64]
    rfl

set_option maxHeartbeats 8000000 in
theorem liveH (W : Valuation τ sig (Elt F)) (h : LiveG (F := F) x0 x1 x2 x3 x4 x5 x6 x7 x8 x9 x10 x11 x12 x13 x14 x15 W) :
    LiveH (F := F) x0 x1 x2 x3 x4 x5 x6 x7 x8 x9 x10 x11 x12 x13 x14 x15 (after opsH W) := by
  obtain ⟨⟨a0, a1, a2, a3, a4, a5, a6, a7, a8, a9, a10, a11, a12, a13, a14, a15⟩, h47, h60, h64, h71⟩ := h
  refine ⟨⟨by keep, by keep, by keep, by keep, by keep, by keep, by keep, by keep, by keep, by keep, by keep, by keep, by keep, by keep, by keep, by keep⟩, ?_, ?_⟩
  ·
    read_results
    rw [h64, h60, h71, a14, a15, a0]
    rfl
  ·
    read_results
    rw [h47, a1]
    rfl

/-- From contents whose argument buffers hold the arguments, the whole line ends with the arguments in place and the
    two results at the last stages. -/
theorem after_ops (W : Valuation τ sig (Elt F)) (h : Args (F := F) x0 x1 x2 x3 x4 x5 x6 x7 x8 x9 x10 x11 x12 x13 x14 x15 W) :
    LiveH (F := F) x0 x1 x2 x3 x4 x5 x6 x7 x8 x9 x10 x11 x12 x13 x14 x15 (after (ops (F := F)) W) := by
  rw [ops_eq]
  simp only [StableHlo.after_append]
  exact liveH _ _ _ _ _ _ _ _ _ _ _ _ _ _ _ _ _ (liveG _ _ _ _ _ _ _ _ _ _ _ _ _ _ _ _ _ (liveF _ _ _ _ _ _ _ _ _ _ _ _ _ _ _ _ _
    (liveE _ _ _ _ _ _ _ _ _ _ _ _ _ _ _ _ _ (liveD _ _ _ _ _ _ _ _ _ _ _ _ _ _ _ _ _ (liveC _ _ _ _ _ _ _ _ _ _ _ _ _ _ _ _ _
    (liveB _ _ _ _ _ _ _ _ _ _ _ _ _ _ _ _ _ (liveA _ _ _ _ _ _ _ _ _ _ _ _ _ _ _ _ _ h)))))))

end Boundaries

/-- Every weakly fair execution of the reference terminates with the node result and the edge result at the last
    stages of the chain, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85) = val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v86) = val_main_v86 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => by
    obtain ⟨⟨a0, a1, a2, a3, a4, a5, a6, a7, a8, a9, a10, a11, a12, a13, a14, a15⟩, h85, h86⟩ := after_ops (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (launchContents m c)
      ⟨rfl, rfl, rfl, rfl, rfl, rfl, rfl, rfl, rfl, rfl, rfl, rfl, rfl, rfl, rfl, rfl⟩
    exact ⟨(h c main_v85).trans h85, (h c main_v86).trans h86, (h c main_arg0).trans a0, (h c main_arg1).trans a1,
      (h c main_arg2).trans a2, (h c main_arg3).trans a3, (h c main_arg4).trans a4, (h c main_arg5).trans a5,
      (h c main_arg6).trans a6, (h c main_arg7).trans a7, (h c main_arg8).trans a8, (h c main_arg9).trans a9,
      (h c main_arg10).trans a10, (h c main_arg11).trans a11, (h c main_arg12).trans a12, (h c main_arg13).trans a13,
      (h c main_arg14).trans a14, (h c main_arg15).trans a15⟩)
    (run_after m ρ)

end Cert.ReferenceIdeal.RefStages

end
-- ==== Proof.RefEdge.lean ====
/-
  The reference's edge update read at an index. Its concatenated input row (sender row, receiver row, edge row) meets the
  384 × 128 weight in ONE sum over 384 features, which is the sum of the three 128-feature blocks; the rest of the chain
  (bias, rectifier, second linear map, mean, variance, normalisation, scale and shift) is the row function of the
  specification entry by entry. So the pre-residual edge value is the message array of the gathered sender and
  receiver tables, and the returned edge table is that plus the old one.
-/
import proofs.«413768_j28114855920032_3_alg».proof.Proof.RefReadP
import proofs.«413768_j28114855920032_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefEdge

open Cert.ReferenceIdeal Cert.ReferenceIdeal.Gen Cert.ReferenceIdeal.ReadP Idealize.ShloMosaic Idealize.ShloMosaic.ValueIdx

/-! ## The concatenated row read at a column

The three tables of 128 columns lie side by side in a table of 384 columns: a column below 128 is the first table's,
a column `128 + a` the second's column `a`, a column `256 + a` the third's column `a`; the row is kept. -/

section Cat

variable (s u e : S600000x128.Idx → EReal)

/-- Columns 0 … 127 of the joined table are the first table. -/
theorem cat_at0 (j : S600000x384.Idx) (r : Fin 600000) (a : Fin 128) (h0 : (j 0).val = r.val) (h1 : (j 1).val = a.val) :
    concatenate S600000x384 1 [⟨S600000x128, s⟩, ⟨S600000x128, u⟩, ⟨S600000x128, e⟩]
      concatenates_S600000x128_S600000x128_S600000x128_S600000x384_d1 j = s (ix2 r a) := by
  refine concatenate_apply_piece (t := S600000x384) (1 : Fin 2) [⟨S600000x128, s⟩, ⟨S600000x128, u⟩, ⟨S600000x128, e⟩] concatenates_S600000x128_S600000x128_S600000x128_S600000x384_d1 j 0 (by show (0 : Nat) < 3; decide) S600000x128 s rfl rfl 0 rfl (ix2 r a) ?_ ?_
  · intro b hb
    match b with
    | ⟨0, _⟩ => exact h0.symm
    | ⟨1, _⟩ => exact absurd (Fin.ext rfl) hb
  · show 0 + a.val = (j 1).val
    omega

/-- Columns 128 … 255 of the joined table are the second table. -/
theorem cat_at1 (j : S600000x384.Idx) (r : Fin 600000) (a : Fin 128) (h0 : (j 0).val = r.val) (h1 : (j 1).val = 128 + a.val) :
    concatenate S600000x384 1 [⟨S600000x128, s⟩, ⟨S600000x128, u⟩, ⟨S600000x128, e⟩]
      concatenates_S600000x128_S600000x128_S600000x128_S600000x384_d1 j = u (ix2 r a) := by
  refine concatenate_apply_piece (t := S600000x384) (1 : Fin 2) [⟨S600000x128, s⟩, ⟨S600000x128, u⟩, ⟨S600000x128, e⟩] concatenates_S600000x128_S600000x128_S600000x128_S600000x384_d1 j 1 (by show (1 : Nat) < 3; decide) S600000x128 u rfl rfl 128 rfl (ix2 r a) ?_ ?_
  · intro b hb
    match b with
    | ⟨0, _⟩ => exact h0.symm
    | ⟨1, _⟩ => exact absurd (Fin.ext rfl) hb
  · show 128 + a.val = (j 1).val
    omega

/-- Columns 256 … 383 of the joined table are the third table. -/
theorem cat_at2 (j : S600000x384.Idx) (r : Fin 600000) (a : Fin 128) (h0 : (j 0).val = r.val) (h1 : (j 1).val = 256 + a.val) :
    concatenate S600000x384 1 [⟨S600000x128, s⟩, ⟨S600000x128, u⟩, ⟨S600000x128, e⟩]
      concatenates_S600000x128_S600000x128_S600000x128_S600000x384_d1 j = e (ix2 r a) := by
  refine concatenate_apply_piece (t := S600000x384) (1 : Fin 2) [⟨S600000x128, s⟩, ⟨S600000x128, u⟩, ⟨S600000x128, e⟩] concatenates_S600000x128_S600000x128_S600000x128_S600000x384_d1 j 2 (by show (2 : Nat) < 3; decide) S600000x128 e rfl rfl 256 rfl (ix2 r a) ?_ ?_
  · intro b hb
    match b with
    | ⟨0, _⟩ => exact h0.symm
    | ⟨1, _⟩ => exact absurd (Fin.ext rfl) hb
  · show 256 + a.val = (j 1).val
    omega

end Cat

/-! ## The stages of the edge chain at an index -/

section Chain

variable (x0 : (⟨S50000x128, .f32⟩ : BufTy).Contents (Elt Ideal)) (x1 : (⟨S600000x128, .f32⟩ : BufTy).Contents (Elt Ideal))
  (x2 x3 : (⟨S600000, .i32⟩ : BufTy).Contents (Elt Ideal)) (x4 : (⟨S384x128, .f32⟩ : BufTy).Contents (Elt Ideal))
  (x5 : (⟨S128, .f32⟩ : BufTy).Contents (Elt Ideal)) (x6 : (⟨S128x128, .f32⟩ : BufTy).Contents (Elt Ideal))
  (x7 x8 x9 : (⟨S128, .f32⟩ : BufTy).Contents (Elt Ideal))

/-- A vector of 128 entries spread over the rows of a table: entry `q` in every row (first layer's bias). -/
theorem v17_at (r : Fin 600000) (q : Fin 128) : val_main_v17 (F := Ideal) x5 (ix2 r q) = Cert.Spec.vec x5 q := by
  rw [val_main_v17_apply, val_main_v16_apply]
  exact congrArg x5 (funext fun a => Fin.ext (by match a with | ⟨0, _⟩ => rfl))

/-- The second layer's bias spread over the rows. -/
theorem v22_at (r : Fin 600000) (q : Fin 128) : val_main_v22 (F := Ideal) x7 (ix2 r q) = Cert.Spec.vec x7 q := by
  rw [val_main_v22_apply, val_main_v21_apply]
  exact congrArg x7 (funext fun a => Fin.ext (by match a with | ⟨0, _⟩ => rfl))

/-- The normalisation's scale spread over the rows. -/
theorem v43_at (r : Fin 600000) (q : Fin 128) : val_main_v43 (F := Ideal) x8 (ix2 r q) = Cert.Spec.vec x8 q := by
  rw [val_main_v43_apply, val_main_v42_apply]
  exact congrArg x8 (funext fun a => Fin.ext (by match a with | ⟨0, _⟩ => rfl))

/-- The normalisation's shift spread over the rows. -/
theorem v46_at (r : Fin 600000) (q : Fin 128) : val_main_v46 (F := Ideal) x9 (ix2 r q) = Cert.Spec.vec x9 q := by
  rw [val_main_v46_apply, val_main_v45_apply]
  exact congrArg x9 (funext fun a => Fin.ext (by match a with | ⟨0, _⟩ => rfl))

/-- The hidden row before the rectifier: the one sum over the 384 joined features splits into the sender's, the
    receiver's and the edge's block, each meeting its 128 rows of the weight; then the bias. -/
theorem v18_at (r : Fin 600000) (k : Fin 128) :
    val_main_v18 (F := Ideal) x0 x1 x2 x3 x4 x5 (ix2 r k)
      = Cert.Spec.hid3 (Cert.Spec.row (val_main_v6 (F := Ideal) x0 x2) r) (Cert.Spec.row (val_main_v13 (F := Ideal) x0 x3) r)
          (Cert.Spec.row x1 r) (Cert.Spec.mat x4) (Cert.Spec.vec x5) k := by
  rw [val_main_v18_apply, val_main_v15_apply, v17_at, Cert.Spec.sum384]
  unfold Cert.Spec.hid3
  refine congrArg (· + Cert.Spec.vec x5 k) ?_
  refine congrArg₂ (· + ·) (congrArg₂ (· + ·) (Finset.sum_congr rfl fun a _ => ?_) (Finset.sum_congr rfl fun a _ => ?_))
    (Finset.sum_congr rfl fun a _ => ?_)
  · have hc := cat_at0 (val_main_v6 (F := Ideal) x0 x2) (val_main_v13 (F := Ideal) x0 x3) x1
      (lidx_main_v15 (ix2 r k) ⟨a.val, by have := a.isLt; omega⟩) r a rfl rfl
    have hw : ridx_main_v15 (ix2 r k) ⟨a.val, by have := a.isLt; omega⟩ = ix2 (⟨a.val, by have := a.isLt; omega⟩ : Fin 384) k :=
      funext fun d => Fin.ext (by match d with | ⟨0, _⟩ => rfl | ⟨1, _⟩ => rfl)
    exact congrArg₂ (· * ·) hc (congrArg x4 hw)
  · have hc := cat_at1 (val_main_v6 (F := Ideal) x0 x2) (val_main_v13 (F := Ideal) x0 x3) x1
      (lidx_main_v15 (ix2 r k) ⟨128 + a.val, by have := a.isLt; omega⟩) r a rfl rfl
    have hw : ridx_main_v15 (ix2 r k) ⟨128 + a.val, by have := a.isLt; omega⟩ = ix2 (⟨128 + a.val, by have := a.isLt; omega⟩ : Fin 384) k :=
      funext fun d => Fin.ext (by match d with | ⟨0, _⟩ => rfl | ⟨1, _⟩ => rfl)
    exact congrArg₂ (· * ·) hc (congrArg x4 hw)
  · have hc := cat_at2 (val_main_v6 (F := Ideal) x0 x2) (val_main_v13 (F := Ideal) x0 x3) x1
      (lidx_main_v15 (ix2 r k) ⟨256 + a.val, by have := a.isLt; omega⟩) r a rfl rfl
    have hw : ridx_main_v15 (ix2 r k) ⟨256 + a.val, by have := a.isLt; omega⟩ = ix2 (⟨256 + a.val, by have := a.isLt; omega⟩ : Fin 384) k :=
      funext fun d => Fin.ext (by match d with | ⟨0, _⟩ => rfl | ⟨1, _⟩ => rfl)
    exact congrArg₂ (· * ·) hc (congrArg x4 hw)

/-- The rectified hidden row: the maximum with the word 0.0 entry by entry. -/
theorem v19_at (r : Fin 600000) (k : Fin 128) :
    val_main_v19 (F := Ideal) x0 x1 x2 x3 x4 x5 (ix2 r k)
      = max (Cert.Spec.hid3 (Cert.Spec.row (val_main_v6 (F := Ideal) x0 x2) r) (Cert.Spec.row (val_main_v13 (F := Ideal) x0 x3) r)
          (Cert.Spec.row x1 r) (Cert.Spec.mat x4) (Cert.Spec.vec x5) k) Cert.Spec.z0 := by
  rw [val_main_v19_apply, v18_at, val_main_call0_v0_apply, val_main_call0_cst_apply]
  rfl

/-- The perceptron's output row: the rectified hidden row through the second weight, plus the second bias. -/
theorem v23_at (r : Fin 600000) (q : Fin 128) :
    val_main_v23 (F := Ideal) x0 x1 x2 x3 x4 x5 x6 x7 (ix2 r q)
      = Cert.Spec.layer2 (Cert.Spec.hid3 (Cert.Spec.row (val_main_v6 (F := Ideal) x0 x2) r) (Cert.Spec.row (val_main_v13 (F := Ideal) x0 x3) r)
          (Cert.Spec.row x1 r) (Cert.Spec.mat x4) (Cert.Spec.vec x5)) (Cert.Spec.mat x6) (Cert.Spec.vec x7) q := by
  rw [val_main_v23_apply, val_main_v20_apply, v22_at]
  unfold Cert.Spec.layer2
  refine congrArg (· + Cert.Spec.vec x7 q) (Finset.sum_congr rfl fun k _ => ?_)
  have hl : lidx_main_v20 (ix2 r q) k = ix2 r k :=
    funext fun d => Fin.ext (by match d with | ⟨0, _⟩ => rfl | ⟨1, _⟩ => rfl)
  have hw : ridx_main_v20 (ix2 r q) k = ix2 k q :=
    funext fun d => Fin.ext (by match d with | ⟨0, _⟩ => rfl | ⟨1, _⟩ => rfl)
  rw [hl, v19_at]
  exact congrArg (_ * ·) (congrArg x6 hw)

/-- Row `r` of the perceptron's output, as a feature row. -/
def yrow (r : Fin 600000) : Cert.Spec.Row := fun q => val_main_v23 (F := Ideal) x0 x1 x2 x3 x4 x5 x6 x7 (ix2 r q)

/-- The row's mean: the sum over the 128 columns starts from the word 0.0, which is the number 0, and is divided by
    the word 128.0. -/
theorem v27_at (r : Fin 600000) :
    val_main_v27 (F := Ideal) x0 x1 x2 x3 x4 x5 x6 x7 (ix2 r (0 : Fin 1)) = Cert.Spec.mean (yrow x0 x1 x2 x3 x4 x5 x6 x7 r) := by
  rw [val_main_v27_apply, val_main_v25_apply, val_main_v24_apply, val_main_v26_apply, val_main_cst_3_apply, val_main_cst_apply]
  show Ideal.div (Ideal.ofBits .f32 0x00000000#32 + _) Cert.Spec.c128 = Ideal.div _ Cert.Spec.c128
  rw [Ideal.ofBits_zero_f32, zero_add]
  refine congrArg (Ideal.div · Cert.Spec.c128) (Finset.sum_congr rfl fun k _ => ?_)
  exact congrArg (val_main_v23 (F := Ideal) x0 x1 x2 x3 x4 x5 x6 x7)
    (funext fun d => Fin.ext (by match d with | ⟨0, _⟩ => rfl | ⟨1, _⟩ => rfl))

/-- The centred row (the copy the variance is taken of). -/
theorem v29_at (r : Fin 600000) (q : Fin 128) :
    val_main_v29 (F := Ideal) x0 x1 x2 x3 x4 x5 x6 x7 (ix2 r q) = Cert.Spec.cen (yrow x0 x1 x2 x3 x4 x5 x6 x7 r) q := by
  have hi : idx_main_v28 (ix2 r q) = ix2 r (0 : Fin 1) :=
    funext fun d => Fin.ext (by match d with | ⟨0, _⟩ => rfl | ⟨1, _⟩ => rfl)
  rw [val_main_v29_apply, val_main_v28_apply, hi, v27_at]
  rfl

/-- The centred row (the copy that is normalised). -/
theorem v36_at (r : Fin 600000) (q : Fin 128) :
    val_main_v36 (F := Ideal) x0 x1 x2 x3 x4 x5 x6 x7 (ix2 r q) = Cert.Spec.cen (yrow x0 x1 x2 x3 x4 x5 x6 x7 r) q := by
  have hi : idx_main_v35 (ix2 r q) = ix2 r (0 : Fin 1) :=
    funext fun d => Fin.ext (by match d with | ⟨0, _⟩ => rfl | ⟨1, _⟩ => rfl)
  rw [val_main_v36_apply, val_main_v35_apply, hi, v27_at]
  rfl

/-- The row's variance: the mean of the squared centred entries. -/
theorem v34_at (r : Fin 600000) :
    val_main_v34 (F := Ideal) x0 x1 x2 x3 x4 x5 x6 x7 (ix2 r (0 : Fin 1)) = Cert.Spec.var (yrow x0 x1 x2 x3 x4 x5 x6 x7 r) := by
  rw [val_main_v34_apply, val_main_v32_apply, val_main_v31_apply, val_main_v33_apply, val_main_cst_5_apply, val_main_cst_4_apply]
  show Ideal.div (Ideal.ofBits .f32 0x00000000#32 + _) Cert.Spec.c128 = Ideal.div _ Cert.Spec.c128
  rw [Ideal.ofBits_zero_f32, zero_add]
  refine congrArg (Ideal.div · Cert.Spec.c128) (Finset.sum_congr rfl fun k _ => ?_)
  have hi : idx_main_v31 (idx_main_v32 (ix2 r (0 : Fin 1))) k = ix2 r k :=
    funext fun d => Fin.ext (by match d with | ⟨0, _⟩ => rfl | ⟨1, _⟩ => rfl)
  rw [hi, val_main_v30_apply, v29_at]
  rfl

/-- The normalising factor, one per row: the reciprocal square root of variance plus epsilon. -/
theorem v40_at (r : Fin 600000) (q : Fin 128) :
    val_main_v40 (F := Ideal) x0 x1 x2 x3 x4 x5 x6 x7 (ix2 r q)
      = Ideal.rsqrt (Cert.Spec.var (yrow x0 x1 x2 x3 x4 x5 x6 x7 r) + Cert.Spec.eps) := by
  have hi : idx_main_v40 (ix2 r q) = ix2 r (0 : Fin 1) :=
    funext fun d => Fin.ext (by match d with | ⟨0, _⟩ => rfl | ⟨1, _⟩ => rfl)
  rw [val_main_v40_apply, hi, val_main_v39_apply, val_main_v38_apply, v34_at, val_main_v37_apply, val_main_cst_6_apply]
  rfl

/-- The normalised, scaled and shifted row. -/
theorem v47_at (r : Fin 600000) (q : Fin 128) :
    val_main_v47 (F := Ideal) x0 x1 x2 x3 x4 x5 x6 x7 x8 x9 (ix2 r q)
      = Cert.Spec.lnorm (yrow x0 x1 x2 x3 x4 x5 x6 x7 r) (Cert.Spec.vec x8) (Cert.Spec.vec x9) q := by
  rw [val_main_v47_apply, val_main_v44_apply, val_main_v41_apply, v36_at, v40_at, v43_at, v46_at]
  rfl

end Chain

/-- The pre-residual edge value is the message array of the two gathered tables and the edge table. -/
theorem v47_eq (x0 : (⟨S50000x128, .f32⟩ : BufTy).Contents (Elt Ideal)) (x1 : (⟨S600000x128, .f32⟩ : BufTy).Contents (Elt Ideal)) (x2 x3 : (⟨S600000, .i32⟩ : BufTy).Contents (Elt Ideal))
    (x4 : (⟨S384x128, .f32⟩ : BufTy).Contents (Elt Ideal)) (x5 : (⟨S128, .f32⟩ : BufTy).Contents (Elt Ideal)) (x6 : (⟨S128x128, .f32⟩ : BufTy).Contents (Elt Ideal)) (x7 x8 x9 : (⟨S128, .f32⟩ : BufTy).Contents (Elt Ideal)) :
    val_main_v47 (F := Ideal) x0 x1 x2 x3 x4 x5 x6 x7 x8 x9
      = Cert.Spec.msgArr (val_main_v6 (F := Ideal) x0 x2) (val_main_v13 (F := Ideal) x0 x3) x1 x4 x5 x6 x7 x8 x9 := by
  funext i
  obtain ⟨r, q, rfl⟩ : ∃ (r : Fin 600000) (q : Fin 128), i = ix2 r q := ⟨i 0, i 1, eq_ix2 i⟩
  rw [v47_at, Cert.Spec.msgArr_ix2]
  unfold Cert.Spec.edgeMsg
  have hy : yrow x0 x1 x2 x3 x4 x5 x6 x7 r
      = Cert.Spec.layer2 (Cert.Spec.hid3 (Cert.Spec.row (val_main_v6 (F := Ideal) x0 x2) r) (Cert.Spec.row (val_main_v13 (F := Ideal) x0 x3) r)
          (Cert.Spec.row x1 r) (Cert.Spec.mat x4) (Cert.Spec.vec x5)) (Cert.Spec.mat x6) (Cert.Spec.vec x7) :=
    funext fun q' => v23_at x0 x1 x2 x3 x4 x5 x6 x7 r q'
  rw [hy]

/-- The returned edge table: message plus old row. -/
theorem v86_eq (x0 : (⟨S50000x128, .f32⟩ : BufTy).Contents (Elt Ideal)) (x1 : (⟨S600000x128, .f32⟩ : BufTy).Contents (Elt Ideal)) (x2 x3 : (⟨S600000, .i32⟩ : BufTy).Contents (Elt Ideal))
    (x4 : (⟨S384x128, .f32⟩ : BufTy).Contents (Elt Ideal)) (x5 : (⟨S128, .f32⟩ : BufTy).Contents (Elt Ideal)) (x6 : (⟨S128x128, .f32⟩ : BufTy).Contents (Elt Ideal)) (x7 x8 x9 : (⟨S128, .f32⟩ : BufTy).Contents (Elt Ideal)) :
    val_main_v86 (F := Ideal) x0 x1 x2 x3 x4 x5 x6 x7 x8 x9
      = Cert.Spec.edgesArr (val_main_v6 (F := Ideal) x0 x2) (val_main_v13 (F := Ideal) x0 x3) x1 x4 x5 x6 x7 x8 x9 := by
  funext i
  rw [val_main_v86_apply, v47_eq]
  rfl

end Cert.ReferenceIdeal.RefEdge

end
-- ==== Proof.RefNode.lean ====
/-
  The reference's node update read at an index. Its concatenated input row (node row, summed-message row) meets the
  256 × 128 weight in ONE sum over 256 features, which is the sum of the two 128-feature blocks; the rest of the chain is
  the row function of the specification entry by entry. The summed messages (the scatter-add) stay one opaque array.
-/
import proofs.«413768_j28114855920032_3_alg».proof.Proof.RefReadP
import proofs.«413768_j28114855920032_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefNode

open Cert.ReferenceIdeal Cert.ReferenceIdeal.Gen Cert.ReferenceIdeal.ReadP Idealize.ShloMosaic Idealize.ShloMosaic.ValueIdx

section Stages

variable (x0 : (⟨S50000x128, .f32⟩ : BufTy).Contents (Elt Ideal)) (x1 : (⟨S600000x128, .f32⟩ : BufTy).Contents (Elt Ideal)) (x2 x3 : (⟨S600000, .i32⟩ : BufTy).Contents (Elt Ideal))
    (x4 : (⟨S384x128, .f32⟩ : BufTy).Contents (Elt Ideal)) (x5 : (⟨S128, .f32⟩ : BufTy).Contents (Elt Ideal)) (x6 : (⟨S128x128, .f32⟩ : BufTy).Contents (Elt Ideal)) (x7 x8 x9 : (⟨S128, .f32⟩ : BufTy).Contents (Elt Ideal))
    (x10 : (⟨S256x128, .f32⟩ : BufTy).Contents (Elt Ideal)) (x11 : (⟨S128, .f32⟩ : BufTy).Contents (Elt Ideal)) (x12 : (⟨S128x128, .f32⟩ : BufTy).Contents (Elt Ideal)) (x13 x14 x15 : (⟨S128, .f32⟩ : BufTy).Contents (Elt Ideal))

/-! ## The concatenated input row, a column at a time -/

/-- A column below 128 of the concatenated table is the node table's column. -/
theorem v51_left (r : Fin 50000) (q a : Fin 128) :
    val_main_v51 (F := Ideal) x0 x1 x2 x3 x4 x5 x6 x7 x8 x9 (lidx_main_v52 (ix2 r q) ⟨a.val, by have := a.isLt; omega⟩) = x0 (ix2 r a) := by
  unfold val_main_v51
  exact concatenate_pair_apply_left _ x0 _ concatenates_S50000x128_S50000x128_S50000x256_d1 _ rfl (ix2 r a)
    (fun b => match b with | ⟨0, _⟩ => rfl | ⟨1, _⟩ => rfl)

/-- A column 128 + a of the concatenated table is column a of the summed messages. -/
theorem v51_right (r : Fin 50000) (q a : Fin 128) :
    val_main_v51 (F := Ideal) x0 x1 x2 x3 x4 x5 x6 x7 x8 x9 (lidx_main_v52 (ix2 r q) ⟨128 + a.val, by have := a.isLt; omega⟩)
      = val_main_v50 (F := Ideal) x0 x1 x2 x3 x4 x5 x6 x7 x8 x9 (ix2 r a) := by
  unfold val_main_v51
  exact concatenate_pair_apply_right _ x0 _ concatenates_S50000x128_S50000x128_S50000x256_d1 _ rfl rfl (ix2 r a)
    (fun b hb => match b, hb with | ⟨0, _⟩, _ => rfl | ⟨1, _⟩, hb => absurd rfl hb)
    (by show a.val + 128 = 128 + a.val; omega)

/-- The first layer's pre-activation is the specification's, the one sum over 256 features split into its two blocks. -/
theorem v55_eq (r : Fin 50000) (k : Fin 128) :
    val_main_v55 (F := Ideal) x0 x1 x2 x3 x4 x5 x6 x7 x8 x9 x10 x11 (ix2 r k)
      = Cert.Spec.hid2 (Cert.Spec.row x0 r) (Cert.Spec.row (val_main_v50 (F := Ideal) x0 x1 x2 x3 x4 x5 x6 x7 x8 x9) r) (Cert.Spec.mat x10) (Cert.Spec.vec x11) k := by
  rw [val_main_v55_apply, val_main_v52_apply, val_main_v54_apply, val_main_v53_apply, Cert.Spec.sum256]
  unfold Cert.Spec.hid2 Cert.Spec.row Cert.Spec.mat Cert.Spec.vec
  refine congrArg₂ (· + ·) (congrArg₂ (· + ·) (Finset.sum_congr rfl fun a _ => ?_) (Finset.sum_congr rfl fun a _ => ?_)) ?_
  · rw [v51_left]
    exact congrArg (x0 (ix2 r a) * x10 ·) (funext fun d => Fin.ext (by match d with | ⟨0, _⟩ => rfl | ⟨1, _⟩ => rfl))
  · rw [v51_right]
    exact congrArg (val_main_v50 (F := Ideal) x0 x1 x2 x3 x4 x5 x6 x7 x8 x9 (ix2 r a) * x10 ·) (funext fun d => Fin.ext (by match d with | ⟨0, _⟩ => rfl | ⟨1, _⟩ => rfl))
  · exact congrArg x11 (funext fun d => Fin.ext (by match d with | ⟨0, _⟩ => rfl))

/-- The rectified hidden entry. -/
theorem v56_eq (r : Fin 50000) (k : Fin 128) :
    val_main_v56 (F := Ideal) x0 x1 x2 x3 x4 x5 x6 x7 x8 x9 x10 x11 (ix2 r k) = max ((Cert.Spec.hid2 (Cert.Spec.row x0 r) (Cert.Spec.row (val_main_v50 (F := Ideal) x0 x1 x2 x3 x4 x5 x6 x7 x8 x9) r) (Cert.Spec.mat x10) (Cert.Spec.vec x11)) k) Cert.Spec.z0 := by
  rw [val_main_v56_apply, val_main_call1_v0_apply, val_main_call1_cst_apply, v55_eq]
  rfl

/-- The perceptron's output entry is the specification's second layer on the hidden row. -/
theorem v60_eq (r : Fin 50000) (q : Fin 128) :
    val_main_v60 (F := Ideal) x0 x1 x2 x3 x4 x5 x6 x7 x8 x9 x10 x11 x12 x13 (ix2 r q)
      = Cert.Spec.layer2 (Cert.Spec.hid2 (Cert.Spec.row x0 r) (Cert.Spec.row (val_main_v50 (F := Ideal) x0 x1 x2 x3 x4 x5 x6 x7 x8 x9) r) (Cert.Spec.mat x10) (Cert.Spec.vec x11)) (Cert.Spec.mat x12) (Cert.Spec.vec x13) q := by
  rw [val_main_v60_apply, val_main_v57_apply, val_main_v59_apply, val_main_v58_apply]
  unfold Cert.Spec.layer2
  refine congrArg₂ (· + ·) (Finset.sum_congr rfl fun k _ => ?_) ?_
  · have e : lidx_main_v57 (ix2 r q) k = ix2 r k :=
      funext fun d => Fin.ext (by match d with | ⟨0, _⟩ => rfl | ⟨1, _⟩ => rfl)
    rw [e, v56_eq]
    exact congrArg (max ((Cert.Spec.hid2 (Cert.Spec.row x0 r) (Cert.Spec.row (val_main_v50 (F := Ideal) x0 x1 x2 x3 x4 x5 x6 x7 x8 x9) r) (Cert.Spec.mat x10) (Cert.Spec.vec x11)) k) Cert.Spec.z0 * x12 ·)
      (funext fun d => Fin.ext (by match d with | ⟨0, _⟩ => rfl | ⟨1, _⟩ => rfl))
  · exact congrArg x13 (funext fun d => Fin.ext (by match d with | ⟨0, _⟩ => rfl))

/-! ## The layer normalisation of one row

Everything from here on sees the perceptron's output only through its row `y` at node `r`. -/

/-- The row's mean: the reduction starts from the word 0, which is the number 0. -/
theorem v64_eq (r : Fin 50000) (y : Cert.Spec.Row)
    (hy : ∀ q : Fin 128, val_main_v60 (F := Ideal) x0 x1 x2 x3 x4 x5 x6 x7 x8 x9 x10 x11 x12 x13 (ix2 r q) = y q) (z : Fin 1) :
    val_main_v64 (F := Ideal) x0 x1 x2 x3 x4 x5 x6 x7 x8 x9 x10 x11 x12 x13 (ix2 r z) = Cert.Spec.mean y := by
  rw [val_main_v64_apply, val_main_v62_apply, val_main_v61_apply, val_main_v63_apply, val_main_cst_9_apply,
    val_main_cst_8_apply]
  have e : ∀ k : Fin 128, idx_main_v61 (idx_main_v62 (ix2 r z)) k = ix2 r k := fun k =>
    funext fun d => Fin.ext (by match d with | ⟨0, _⟩ => rfl | ⟨1, _⟩ => rfl)
  simp only [e, hy]
  unfold Cert.Spec.mean
  show Ideal.div (Ideal.ofBits .f32 0x00000000#32 + _) Cert.Spec.c128 = _
  rw [Ideal.ofBits_zero_f32, zero_add]

/-- The centred entry (the one the variance is taken of). -/
theorem v66_eq (r : Fin 50000) (y : Cert.Spec.Row)
    (hy : ∀ q : Fin 128, val_main_v60 (F := Ideal) x0 x1 x2 x3 x4 x5 x6 x7 x8 x9 x10 x11 x12 x13 (ix2 r q) = y q) (q : Fin 128) :
    val_main_v66 (F := Ideal) x0 x1 x2 x3 x4 x5 x6 x7 x8 x9 x10 x11 x12 x13 (ix2 r q) = Cert.Spec.cen y q := by
  have e : idx_main_v65 (ix2 r q) = ix2 r (0 : Fin 1) := funext fun d => Fin.ext (by match d with | ⟨0, _⟩ => rfl | ⟨1, _⟩ => rfl)
  rw [val_main_v66_apply, val_main_v65_apply, e, v64_eq x0 x1 x2 x3 x4 x5 x6 x7 x8 x9 x10 x11 x12 x13 r y hy, hy]
  rfl

/-- The row's variance: the mean of the squared centred entries. -/
theorem v71_eq (r : Fin 50000) (y : Cert.Spec.Row)
    (hy : ∀ q : Fin 128, val_main_v60 (F := Ideal) x0 x1 x2 x3 x4 x5 x6 x7 x8 x9 x10 x11 x12 x13 (ix2 r q) = y q) (z : Fin 1) :
    val_main_v71 (F := Ideal) x0 x1 x2 x3 x4 x5 x6 x7 x8 x9 x10 x11 x12 x13 (ix2 r z) = Cert.Spec.var y := by
  rw [val_main_v71_apply, val_main_v69_apply, val_main_v68_apply, val_main_v70_apply, val_main_cst_11_apply,
    val_main_cst_10_apply]
  have e : ∀ k : Fin 128, idx_main_v68 (idx_main_v69 (ix2 r z)) k = ix2 r k := fun k => funext fun d => Fin.ext (by match d with | ⟨0, _⟩ => rfl | ⟨1, _⟩ => rfl)
  simp only [e, val_main_v67_apply, v66_eq x0 x1 x2 x3 x4 x5 x6 x7 x8 x9 x10 x11 x12 x13 r y hy, Ideal.mulf_def]
  unfold Cert.Spec.var
  show Ideal.div (Ideal.ofBits .f32 0x00000000#32 + _) Cert.Spec.c128 = _
  rw [Ideal.ofBits_zero_f32, zero_add]

/-- The centred entry again (the one that is scaled). -/
theorem v73_eq (r : Fin 50000) (y : Cert.Spec.Row)
    (hy : ∀ q : Fin 128, val_main_v60 (F := Ideal) x0 x1 x2 x3 x4 x5 x6 x7 x8 x9 x10 x11 x12 x13 (ix2 r q) = y q) (q : Fin 128) :
    val_main_v73 (F := Ideal) x0 x1 x2 x3 x4 x5 x6 x7 x8 x9 x10 x11 x12 x13 (ix2 r q) = Cert.Spec.cen y q := by
  have e : idx_main_v72 (ix2 r q) = ix2 r (0 : Fin 1) := funext fun d => Fin.ext (by match d with | ⟨0, _⟩ => rfl | ⟨1, _⟩ => rfl)
  rw [val_main_v73_apply, val_main_v72_apply, e, v64_eq x0 x1 x2 x3 x4 x5 x6 x7 x8 x9 x10 x11 x12 x13 r y hy, hy]
  rfl

/-- The reciprocal square root of the variance plus epsilon. -/
theorem v76_eq (r : Fin 50000) (y : Cert.Spec.Row)
    (hy : ∀ q : Fin 128, val_main_v60 (F := Ideal) x0 x1 x2 x3 x4 x5 x6 x7 x8 x9 x10 x11 x12 x13 (ix2 r q) = y q) (z : Fin 1) :
    val_main_v76 (F := Ideal) x0 x1 x2 x3 x4 x5 x6 x7 x8 x9 x10 x11 x12 x13 (ix2 r z) = Ideal.rsqrt (Cert.Spec.var y + Cert.Spec.eps) := by
  rw [val_main_v76_apply, val_main_v75_apply, val_main_v74_apply, val_main_cst_12_apply, v71_eq x0 x1 x2 x3 x4 x5 x6 x7 x8 x9 x10 x11 x12 x13 r y hy]
  rfl

/-- The normalised, scaled and shifted entry is the specification's layer normalisation of the row. -/
theorem v84_eq (r : Fin 50000) (y : Cert.Spec.Row)
    (hy : ∀ q : Fin 128, val_main_v60 (F := Ideal) x0 x1 x2 x3 x4 x5 x6 x7 x8 x9 x10 x11 x12 x13 (ix2 r q) = y q) (q : Fin 128) :
    val_main_v84 (F := Ideal) x0 x1 x2 x3 x4 x5 x6 x7 x8 x9 x10 x11 x12 x13 x14 x15 (ix2 r q) = Cert.Spec.lnorm y (Cert.Spec.vec x14) (Cert.Spec.vec x15) q := by
  have e : idx_main_v77 (ix2 r q) = ix2 r (0 : Fin 1) := funext fun d => Fin.ext (by match d with | ⟨0, _⟩ => rfl | ⟨1, _⟩ => rfl)
  have e14 : idx_main_v79 (idx_main_v80 (ix2 r q)) = ix1 q := funext fun d => Fin.ext (by match d with | ⟨0, _⟩ => rfl)
  have e15 : idx_main_v82 (idx_main_v83 (ix2 r q)) = ix1 q := funext fun d => Fin.ext (by match d with | ⟨0, _⟩ => rfl)
  rw [val_main_v84_apply, val_main_v81_apply, val_main_v78_apply, val_main_v77_apply, val_main_v80_apply,
    val_main_v79_apply, val_main_v83_apply, val_main_v82_apply, e, e14, e15, v73_eq x0 x1 x2 x3 x4 x5 x6 x7 x8 x9 x10 x11 x12 x13 r y hy,
    v76_eq x0 x1 x2 x3 x4 x5 x6 x7 x8 x9 x10 x11 x12 x13 r y hy]
  rfl

end Stages

/-- The returned node table is the node row function of the node table and the summed messages, plus the old table. -/
theorem v85_eq (x0 : (⟨S50000x128, .f32⟩ : BufTy).Contents (Elt Ideal)) (x1 : (⟨S600000x128, .f32⟩ : BufTy).Contents (Elt Ideal)) (x2 x3 : (⟨S600000, .i32⟩ : BufTy).Contents (Elt Ideal))
    (x4 : (⟨S384x128, .f32⟩ : BufTy).Contents (Elt Ideal)) (x5 : (⟨S128, .f32⟩ : BufTy).Contents (Elt Ideal)) (x6 : (⟨S128x128, .f32⟩ : BufTy).Contents (Elt Ideal)) (x7 x8 x9 : (⟨S128, .f32⟩ : BufTy).Contents (Elt Ideal))
    (x10 : (⟨S256x128, .f32⟩ : BufTy).Contents (Elt Ideal)) (x11 : (⟨S128, .f32⟩ : BufTy).Contents (Elt Ideal)) (x12 : (⟨S128x128, .f32⟩ : BufTy).Contents (Elt Ideal)) (x13 x14 x15 : (⟨S128, .f32⟩ : BufTy).Contents (Elt Ideal)) :
    val_main_v85 (F := Ideal) x0 x1 x2 x3 x4 x5 x6 x7 x8 x9 x10 x11 x12 x13 x14 x15
      = Cert.Spec.nodesArr x0 (val_main_v50 (F := Ideal) x0 x1 x2 x3 x4 x5 x6 x7 x8 x9) x10 x11 x12 x13 x14 x15 := by
  funext i
  obtain ⟨r, q, rfl⟩ : ∃ (r : Fin 50000) (q : Fin 128), i = ix2 r q := ⟨i 0, i 1, eq_ix2 i⟩
  rw [val_main_v85_apply, v84_eq x0 x1 x2 x3 x4 x5 x6 x7 x8 x9 x10 x11 x12 x13 x14 x15 r _ (v60_eq x0 x1 x2 x3 x4 x5 x6 x7 x8 x9 x10 x11 x12 x13 r) q]
  rfl

end Cert.ReferenceIdeal.RefNode

end
-- ==== Proof.RefIdx.lean ====
/-
  The reference's index normalisation is the identity on non-negative indices. Before each gather the reference
  replaces an index s by s + 50000 where s < 0 (signed) and keeps it otherwise. An index that is ≥ 0 is not < 0, so the
  selection keeps it: the normalised index array is the index array itself, and each gathered table is the plain gather
  at the raw indices.
-/
import proofs.«413768_j28114855920032_3_alg».proof.Proof.RefReadP
import Idealize.ShloMosaic.Lib.Affine
import Idealize.ShloMosaic.Lib.ValueIdx

noncomputable section

namespace Cert.ReferenceIdeal.RefIdx

open Cert.ReferenceIdeal Cert.ReferenceIdeal.Gen Cert.ReferenceIdeal.ReadP Idealize.ShloMosaic Idealize.ShloMosaic.ValueIdx

/-- A word that is ≥ 0 (signed) is not < 0: the comparison word is 0. -/
theorem slt_zero_of_sge (x : BitVec 32) (h : IntOp.cmpi .sge x 0#32 = 1#1) : IntOp.cmpi .slt x 0#32 = 0#1 := by
  refine eq_zero_of_ne_one fun hlt => ?_
  have h1 := IntOp.cmpi_sge.1 h
  have h2 := IntOp.cmpi_slt.1 hlt
  omega

/-- The sender indices are kept by the normalisation when they are all non-negative. -/
theorem v4_eq (x2 : (⟨S600000, .i32⟩ : BufTy).Contents (Elt Ideal)) (h : ∀ i, IntOp.cmpi .sge (x2 i) 0#32 = 1#1) :
    val_main_v4 (F := Ideal) x2 = x2 := by
  funext i
  rw [val_main_v4_apply]
  have e : val_main_v1 (F := Ideal) x2 i = 0#1 := by
    rw [val_main_v1_apply, val_main_v0_apply, val_main_c_apply]
    exact slt_zero_of_sge _ (h i)
  rw [e, select_zero]

/-- The receiver indices likewise. -/
theorem v11_eq (x3 : (⟨S600000, .i32⟩ : BufTy).Contents (Elt Ideal)) (h : ∀ i, IntOp.cmpi .sge (x3 i) 0#32 = 1#1) :
    val_main_v11 (F := Ideal) x3 = x3 := by
  funext i
  rw [val_main_v11_apply]
  have e : val_main_v8 (F := Ideal) x3 i = 0#1 := by
    rw [val_main_v8_apply, val_main_v7_apply, val_main_c_1_apply]
    exact slt_zero_of_sge _ (h i)
  rw [e, select_zero]

/-- The gathered sender table is the gather of the node table at the raw sender indices. -/
theorem v6_eq (x0 : (⟨S50000x128, .f32⟩ : BufTy).Contents (Elt Ideal)) (x2 : (⟨S600000, .i32⟩ : BufTy).Contents (Elt Ideal))
    (h : ∀ i, IntOp.cmpi .sge (x2 i) 0#32 = 1#1) :
    val_main_v6 (F := Ideal) x0 x2
      = Host.gather gather_S50000x128_S600000x1_S600000x128_1_0_n_n_0_1_1128 x0
          (broadcastInDim S600000x1 ![0] bcast_S600000_S600000x1_0 x2) := by
  unfold val_main_v6 val_main_v5
  rw [v4_eq x2 h]

/-- The gathered receiver table is the gather of the node table at the raw receiver indices. -/
theorem v13_eq (x0 : (⟨S50000x128, .f32⟩ : BufTy).Contents (Elt Ideal)) (x3 : (⟨S600000, .i32⟩ : BufTy).Contents (Elt Ideal))
    (h : ∀ i, IntOp.cmpi .sge (x3 i) 0#32 = 1#1) :
    val_main_v13 (F := Ideal) x0 x3
      = Host.gather gather_S50000x128_S600000x1_S600000x128_1_0_n_n_0_1_1128 x0
          (broadcastInDim S600000x1 ![0] bcast_S600000_S600000x1_0 x3) := by
  unfold val_main_v13 val_main_v12
  rw [v11_eq x3 h]

end Cert.ReferenceIdeal.RefIdx

end
-- ==== Proof.PreDecode.lean ====
/-
  What the precondition says of the two index inputs. The precondition is one conjunction of "all" tests, each a
  reduction by `and` of a one-bit array; its last two conjuncts compare every sender index and every receiver index
  with zero, signed. A conjunction that is 1 has every conjunct 1, and an "all" that is 1 has every element 1: so
  every sender index and every receiver index is non-negative.
-/
import proofs.«413768_j28114855920032_3_alg».proof.Pre_finite_inputs
import proofs.«413768_j28114855920032_3_alg».proof.Proof.Gen.Pre_finite_inputs
import Idealize.ShloMosaic.Lib.ReduceAll
import Idealize.ShloMosaic.Lib.ValueIdx

noncomputable section

namespace Cert.Pre_finite_inputs.Decode

open Idealize.ShloMosaic Idealize.ShloMosaic.ValueIdx Cert.Pre_finite_inputs Cert.Pre_finite_inputs.Gen

instance : Subsingleton S_.Idx := ⟨fun a b => funext fun d => d.elim0⟩

/-- The last part of the printed predicate, whatever the conjunction before it: if it is 1 then both index arrays are
    non-negative everywhere. -/
theorem part4_nonneg (a2 a3 : IVec S600000 32) (u v : IVec S_ 1)
    (h : fn_part4 (F := Ideal) a2 a3 u v ix0 = 1#1) :
    (∀ i, IntOp.cmpi .sge (a2 i) 0#32 = 1#1) ∧ (∀ i, IntOp.cmpi .sge (a3 i) 0#32 = 1#1) := by
  unfold fn_part4 at h
  obtain ⟨h1, h3⟩ := IntOp.andi_eq_one.1 h
  obtain ⟨-, h2⟩ := IntOp.andi_eq_one.1 h1
  exact ⟨fun i => Host.reduce_andi_all _ _ _ _ _ h2 i, fun i => Host.reduce_andi_all _ _ _ _ _ h3 i⟩

/-- Under the precondition every sender index and every receiver index is non-negative. -/
theorem nonneg_of_pre (a0 : FVec Ideal S50000x128 .f32) (a1 : FVec Ideal S600000x128 .f32) (a2 a3 : IVec S600000 32) (a4 : FVec Ideal S384x128 .f32)
    (a5 : FVec Ideal S128 .f32) (a6 : FVec Ideal S128x128 .f32) (a7 a8 a9 : FVec Ideal S128 .f32) (a10 : FVec Ideal S256x128 .f32)
    (a11 : FVec Ideal S128 .f32) (a12 : FVec Ideal S128x128 .f32) (a13 a14 a15 : FVec Ideal S128 .f32)
    (h : fn (F := Ideal) a0 a1 a2 a3 a4 a5 a6 a7 a8 a9 a10 a11 a12 a13 a14 a15 = fun _ => 1#1) :
    (∀ i, IntOp.cmpi .sge (a2 i) 0#32 = 1#1) ∧ (∀ i, IntOp.cmpi .sge (a3 i) 0#32 = 1#1) := by
  obtain ⟨u, v, e⟩ : ∃ u v, fn (F := Ideal) a0 a1 a2 a3 a4 a5 a6 a7 a8 a9 a10 a11 a12 a13 a14 a15
      = fn_part4 (F := Ideal) a2 a3 u v := ⟨_, _, rfl⟩
  exact part4_nonneg a2 a3 u v (by rw [← e, h])

end Cert.Pre_finite_inputs.Decode

end
-- ==== Proof.lean ====
/-
  One message-passing step of a graph network, kernel against reference, over the extended reals.

  Both programs compute, for every edge, the layer-normalised output of a two-layer perceptron on the concatenation of
  the sender's row, the receiver's row and the edge's row (the message), add the old edge row to get the new edge
  table, sum the messages per receiving node, and pass each node's row together with that sum through a second
  perceptron and layer normalisation, adding the old node row. The kernel does the two perceptrons in two calls tiled
  over rows, multiplies the three (resp. two) 128-column blocks of the first weight separately, and gathers the node
  table at the raw indices; the reference concatenates first and uses one 384- (resp. 256-) term sum, and wraps a
  negative index around before gathering. A sum over the concatenated features is the sum of the blocks' sums in any
  commutative monoid, the extended reals included, so no finiteness is used; and under the precondition's last two
  conjuncts every index is non-negative, where the reference's wrap-around is the identity. Everything else —
  rectifier, second linear map, mean, variance, reciprocal square root, scale, shift, residual, and the scatter-add
  between the calls — is the same operation on both sides, on equal operands.

  The frames of the two kernel programs are the generated frame certificates; the reference's frame is its run with
  the results dropped.
-/
import proofs.«413768_j28114855920032_3_alg».proof.Defs
import proofs.«413768_j28114855920032_3_alg».proof.Proof.Gen.Kernel
import proofs.«413768_j28114855920032_3_alg».proof.Proof.Gen.Kernel.Skeleton
import proofs.«413768_j28114855920032_3_alg».proof.Proof.Gen.Kernel.Launch
import proofs.«413768_j28114855920032_3_alg».proof.Proof.Gen.Kernel.Points
import proofs.«413768_j28114855920032_3_alg».proof.Proof.Gen.Kernel.Frame
import proofs.«413768_j28114855920032_3_alg».proof.Proof.Gen.KernelIdeal
import proofs.«413768_j28114855920032_3_alg».proof.Proof.Gen.KernelIdeal.Skeleton
import proofs.«413768_j28114855920032_3_alg».proof.Proof.Gen.KernelIdeal.Launch
import proofs.«413768_j28114855920032_3_alg».proof.Proof.Gen.KernelIdeal.Points
import proofs.«413768_j28114855920032_3_alg».proof.Proof.Gen.KernelIdeal.Frame
import proofs.«413768_j28114855920032_3_alg».proof.Proof.Gen.ReferenceIdeal
import proofs.«413768_j28114855920032_3_alg».proof.Proof.Gen.Pre_finite_inputs
import proofs.«413768_j28114855920032_3_alg».proof.Proof.KValue
import proofs.«413768_j28114855920032_3_alg».proof.Proof.RefStages
import proofs.«413768_j28114855920032_3_alg».proof.Proof.RefEdge
import proofs.«413768_j28114855920032_3_alg».proof.Proof.RefNode
import proofs.«413768_j28114855920032_3_alg».proof.Proof.RefIdx
import proofs.«413768_j28114855920032_3_alg».proof.Proof.PreDecode
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the two results dropped. -/
theorem frame_referenceIdeal : Cert.frame_ReferenceIdeal := fun m ρ _ =>
  (θ_run Cert.ReferenceIdeal.defs _ _).mono (fun _ h c => (h c).2.2)
    (Cert.ReferenceIdeal.RefStages.run (F := Ideal) m ρ)

/-- The idealisation rewrote nothing: its ledger is empty. -/
theorem preserves : Cert.preserves_Kernel_KernelIdeal := trivial

/-- From memories that agree on the arguments and satisfy the precondition, both programs end with the new node table
    and the new edge table of the specification: the kernel by its two calls and the host operations around them, the
    reference by its chain of stages, whose gathers read the raw indices because those are non-negative. -/
theorem algebraic : Cert.algebraic_KernelIdeal_ReferenceIdeal := by
  intro m ρ m' ρ' hpre hagree
  refine ⟨fun c => Cert.KernelIdeal.KValue.nodesOut m c, fun c => Cert.KernelIdeal.KValue.edgesOut m c,
    Cert.KernelIdeal.KValue.run m ρ, ?_⟩
  refine (θ_run Cert.ReferenceIdeal.defs _ _).mono (fun r h c => ?_)
    (Cert.ReferenceIdeal.RefStages.run (F := Ideal) m' ρ')
  obtain ⟨h85, h86, hargs⟩ := h c
  obtain ⟨g0, g1, g2, g3, g4, g5, g6, g7, g8, g9, g10, g11, g12, g13, g14, g15⟩ := hagree c
  obtain ⟨hs, hr⟩ := Cert.Pre_finite_inputs.Decode.nonneg_of_pre _ _ _ _ _ _ _ _ _ _ _ _ _ _ _ _ (hpre c)
  refine ⟨h85.trans ?_, h86.trans ?_, hargs⟩
  · rw [g0, g1, g2, g3, g4, g5, g6, g7, g8, g9, g10, g11, g12, g13, g14, g15, Cert.ReferenceIdeal.RefNode.v85_eq]
    unfold Cert.ReferenceIdeal.ReadP.val_main_v50
    rw [Cert.ReferenceIdeal.RefEdge.v47_eq, Cert.ReferenceIdeal.RefIdx.v6_eq _ _ hs,
      Cert.ReferenceIdeal.RefIdx.v13_eq _ _ hr]
    rfl
  · rw [g0, g1, g2, g3, g4, g5, g6, g7, g8, g9, Cert.ReferenceIdeal.RefEdge.v86_eq,
      Cert.ReferenceIdeal.RefIdx.v6_eq _ _ hs, Cert.ReferenceIdeal.RefIdx.v13_eq _ _ hr]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
